-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x28x28 : Shape := ⟨4, ![4, 64, 28, 28]⟩
abbrev S64x64x3x3 : Shape := ⟨4, ![64, 64, 3, 3]⟩
abbrev S_ : Shape := ⟨0, ![]⟩

class Facts : Prop where
  bcast_S_S4x64x28x28 : S_.BroadcastsInDim S4x64x28x28 (![] : Fin 0 → Fin S4x64x28x28.rank)
  reducesTo_S4x64x28x28_S_d0_1_2_3 : S4x64x28x28.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S4x64x28x28 .f32) (main_arg1 : FVec F S64x64x3x3 .f32) : IVec S_ 1 :=
  let main_v0 : FVec F S4x64x28x28 .f32 := Host.absf main_arg0
  let main_cst : FVec F S_ .f32 := constant S_ .f32 0x7F800000#32
  let main_v1 : FVec F S4x64x28x28 .f32 := broadcastInDim S4x64x28x28 ![] bcast_S_S4x64x28x28 main_cst
  let main_v2 : IVec S4x64x28x28 1 := cmpf .olt main_v0 main_v1
  let main_c : IVec S_ 1 := constantI S_ 1 1#1
  let main_v3 : IVec S_ 1 := (fun x v => Host.reduce IntOp.andi x v reducesTo_S4x64x28x28_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S4x64x28x28 : Shape := ⟨4, ![4, 64, 28, 28]⟩
abbrev S64x64x3x3 : Shape := ⟨4, ![64, 64, 3, 3]⟩
abbrev S_ : Shape := ⟨0, ![]⟩
abbrev S64 : Shape := ⟨1, ![64]⟩
abbrev S64x1x1x1 : Shape := ⟨4, ![64, 1, 1, 1]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S576x784x4 : Shape := ⟨3, ![576, 784, 4]⟩
abbrev S576x3136 : Shape := ⟨2, ![576, 3136]⟩
abbrev S64x576 : Shape := ⟨2, ![64, 576]⟩
abbrev S576x64 : Shape := ⟨2, ![576, 64]⟩
abbrev S640x64 : Shape := ⟨2, ![640, 64]⟩
abbrev S640x3328 : Shape := ⟨2, ![640, 3328]⟩
abbrev S64x3328 : Shape := ⟨2, ![64, 3328]⟩
abbrev S128x64 : Shape := ⟨2, ![128, 64]⟩
abbrev S128x256 : Shape := ⟨2, ![128, 256]⟩
abbrev S64x256 : Shape := ⟨2, ![64, 256]⟩
abbrev S128x64x1 : Shape := ⟨3, ![128, 64, 1]⟩
abbrev S128x1x256 : Shape := ⟨3, ![128, 1, 256]⟩
abbrev S128x64x256 : Shape := ⟨3, ![128, 64, 256]⟩
abbrev S64x3136 : Shape := ⟨2, ![64, 3136]⟩
abbrev S64x28x28x4 : Shape := ⟨4, ![64, 28, 28, 4]⟩

abbrev nBuf : Space → Nat
  | .hbm => 105
  | .vmem => 7
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x64x28x28, .f32⟩
  | .hbm, ⟨15, _⟩ => ⟨S4x64x28x28, .f32⟩
  | .hbm, ⟨16, _⟩ => ⟨S4x64x28x28, .f32⟩
  | .hbm, ⟨17, _⟩ => ⟨S4x64x28x28, .f32⟩
  | .hbm, ⟨18, _⟩ => ⟨S4x64x28x28, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x64x28x28, .f32⟩
  | .hbm, ⟨23, _⟩ => ⟨S4x64x28x28, .f32⟩
  | .hbm, ⟨24, _⟩ => ⟨S_, .f32⟩
  | .hbm, ⟨25, _⟩ => ⟨S4x64x28x28, .f32⟩
  | .hbm, ⟨26, _⟩ => ⟨S4x64x28x28, .f32⟩
  | .hbm, ⟨27, _⟩ => ⟨S4x64x28x28, .f32⟩
  | .hbm, ⟨28, _⟩ => ⟨S4x64x28x28, .f32⟩
  | .hbm, ⟨29, _⟩ => ⟨S4x64x28x28, .f32⟩
  | .hbm, ⟨30, _⟩ => ⟨S4x64x28x28, .f32⟩
  | .hbm, ⟨31, _⟩ => ⟨S4x64x28x28, .f32⟩
  | .hbm, ⟨32, _⟩ => ⟨S4x64x28x28, .f32⟩
  | .hbm, ⟨33, _⟩ => ⟨S_, .f32⟩
  | .hbm, ⟨34, _⟩ => ⟨S64, .f32⟩
  | .hbm, ⟨35, _⟩ => ⟨S64x1x1x1, .f32⟩
  | .hbm, ⟨36, _⟩ => ⟨S_, .f32⟩
  | .hbm, ⟨37, _⟩ => ⟨S64, .f32⟩
  | .hbm, ⟨38, _⟩ => ⟨S64x1x1x1, .f32⟩
  | .hbm, ⟨39, _⟩ => ⟨S64x1x1x1, .f32⟩
  | .hbm, ⟨40, _⟩ => ⟨S_, .f32⟩
  | .hbm, ⟨41, _⟩ => ⟨S64x1x1x1, .f32⟩
  | .hbm, ⟨42, _⟩ => ⟨S64x1x1x1, .f32⟩
  | .hbm, ⟨43, _⟩ => ⟨S_, .f32⟩
  | .hbm, ⟨44, _⟩ => ⟨S64x1x1x1, .f32⟩
  | .hbm, ⟨45, _⟩ => ⟨S64x1x1x1, .f32⟩
  | .hbm, ⟨46, _⟩ => ⟨S64x1x1x1, .f32⟩
  | .hbm, ⟨47, _⟩ => ⟨S64x1x1x1, .f32⟩
  | .hbm, ⟨48, _⟩ => ⟨S64x1x1x1, .f32⟩
  | .hbm, ⟨49, _⟩ => ⟨S64x64x3x3, .f32⟩
  | .hbm, ⟨50, _⟩ => ⟨S64x64x3x3, .f32⟩
  | .hbm, ⟨51, _⟩ => ⟨S64x64x3x3, .f32⟩
  | .hbm, ⟨52, _⟩ => ⟨S64x64x3x3, .f32⟩
  | .hbm, ⟨53, _⟩ => ⟨S64x64x3x3, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64x64x3x3, .f32⟩
  | .hbm, ⟨58, _⟩ => ⟨S64x64x3x3, .f32⟩
  | .hbm, ⟨59, _⟩ => ⟨S_, .f32⟩
  | .hbm, ⟨60, _⟩ => ⟨S64x64x3x3, .f32⟩
  | .hbm, ⟨61, _⟩ => ⟨S64x64x3x3, .f32⟩
  | .hbm, ⟨62, _⟩ => ⟨S64x64x3x3, .f32⟩
  | .hbm, ⟨63, _⟩ => ⟨S64x64x3x3, .f32⟩
  | .hbm, ⟨64, _⟩ => ⟨S64x64x3x3, .f32⟩
  | .hbm, ⟨65, _⟩ => ⟨S64x64x3x3, .f32⟩
  | .hbm, ⟨66, _⟩ => ⟨S64x64x3x3, .f32⟩
  | .hbm, ⟨67, _⟩ => ⟨S64x64x3x3, .f32⟩
  | .hbm, ⟨68, _⟩ => ⟨S_, .i32⟩
  | .hbm, ⟨69, _⟩ => ⟨S_, .f32⟩
  | .hbm, ⟨70, _⟩ => ⟨S4x64x30x30, .f32⟩
  | .hbm, ⟨71, _⟩ => ⟨S4x64x28x28, .f32⟩
  | .hbm, ⟨72, _⟩ => ⟨S4x64x28x28, .f32⟩
  | .hbm, ⟨73, _⟩ => ⟨S4x64x28x28, .f32⟩
  | .hbm, ⟨74, _⟩ => ⟨S4x64x28x28, .f32⟩
  | .hbm, ⟨75, _⟩ => ⟨S4x64x28x28, .f32⟩
  | .hbm, ⟨76, _⟩ => ⟨S4x64x28x28, .f32⟩
  | .hbm, ⟨77, _⟩ => ⟨S4x64x28x28, .f32⟩
  | .hbm, ⟨78, _⟩ => ⟨S4x64x28x28, .f32⟩
  | .hbm, ⟨79, _⟩ => ⟨S4x64x28x28, .f32⟩
  | .hbm, ⟨80, _⟩ => ⟨S4x64x1x28x28, .f32⟩
  | .hbm, ⟨81, _⟩ => ⟨S4x64x1x28x28, .f32⟩
  | .hbm, ⟨82, _⟩ => ⟨S4x64x1x28x28, .f32⟩
  | .hbm, ⟨83, _⟩ => ⟨S4x64x1x28x28, .f32⟩
  | .hbm, ⟨84, _⟩ => ⟨S4x64x1x28x28, .f32⟩
  | .hbm, ⟨85, _⟩ => ⟨S4x64x1x28x28, .f32⟩
  | .hbm, ⟨86, _⟩ => ⟨S4x64x1x28x28, .f32⟩
  | .hbm, ⟨87, _⟩ => ⟨S4x64x1x28x28, .f32⟩
  | .hbm, ⟨88, _⟩ => ⟨S4x64x1x28x28, .f32⟩
  | .hbm, ⟨89, _⟩ => ⟨S4x64x9x28x28, .f32⟩
  | .hbm, ⟨90, _⟩ => ⟨S4x576x784, .f32⟩
  | .hbm, ⟨91, _⟩ => ⟨S576x784x4, .f32⟩
  | .hbm, ⟨92, _⟩ => ⟨S576x3136, .f32⟩
  | .hbm, ⟨93, _⟩ => ⟨S64x576, .f32⟩
  | .hbm, ⟨94, _⟩ => ⟨S576x64, .f32⟩
  | .hbm, ⟨95, _⟩ => ⟨S_, .i32⟩
  | .hbm, ⟨96, _⟩ => ⟨S_, .f32⟩
  | .hbm, ⟨97, _⟩ => ⟨S640x64, .f32⟩
  | .hbm, ⟨98, _⟩ => ⟨S_, .i32⟩
  | .hbm, ⟨99, _⟩ => ⟨S_, .f32⟩
  | .hbm, ⟨100, _⟩ => ⟨S640x3328, .f32⟩
  | .hbm, ⟨101, _⟩ => ⟨S64x3328, .f32⟩
  | .hbm, ⟨102, _⟩ => ⟨S64x3136, .f32⟩
  | .hbm, ⟨103, _⟩ => ⟨S64x28x28x4, .f32⟩
  | .hbm, ⟨104, _⟩ => ⟨S4x64x28x28, .f32⟩
  | .local _ .vmem, ⟨0, _⟩ => ⟨S128x64, .f32⟩
  | .local _ .vmem, ⟨1, _⟩ => ⟨S128x64, .f32⟩
  | .local _ .vmem, ⟨2, _⟩ => ⟨S128x256, .f32⟩
  | .local _ .vmem, ⟨3, _⟩ => ⟨S128x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | _, _ => ⟨S4x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_cst_10 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c : Ref sig .tc := ⟨.hbm, 68, rfl⟩
abbrev main_call6_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_11 : Ref sig .tc := ⟨.hbm, 95, rfl⟩
abbrev main_call7_v0 : Ref sig .tc := ⟨.hbm, 96, rfl⟩
abbrev main_v69 : Ref sig .tc := ⟨.hbm, 97, rfl⟩
abbrev main_c_12 : Ref sig .tc := ⟨.hbm, 98, rfl⟩
abbrev main_call8_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 5], ![false, false]⟩

def k0_cond2 (i : grid0.Coords) : BitVec 1 :=
  let arg1 : BitVec 32 := BitVec.ofNat 32 (i 1).val
  let c4_i32 : BitVec 32 := 4#32
  let v19 : BitVec 1 := Scalar.cmpi .eq arg1 c4_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4x64x28x28_S_d0_1_2_3 : S4x64x28x28.ReducesTo [0, 1, 2, 3] S_
  h_S_ : 0 < S_.numel
  bcast_S_S4x64x28x28 : S_.BroadcastsInDim S4x64x28x28 (![] : Fin 0 → Fin S4x64x28x28.rank)
  reducesTo_S64x64x3x3_S64_d1_2_3 : S64x64x3x3.ReducesTo [1, 2, 3] S64
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x64x3x3_0_1_2_3 : S64x1x1x1.BroadcastsInDim S64x64x3x3 (![0, 1, 2, 3] : Fin 4 → Fin S64x64x3x3.rank)
  bcast_S_S64x64x3x3 : S_.BroadcastsInDim S64x64x3x3 (![] : Fin 0 → Fin S64x64x3x3.rank)
  pads_S4x64x28x28_S4x64x30x30_000_000_110_110 : S4x64x28x28.Pads (![0, 0, 1, 1] : Fin 4 → Nat) ![0, 0, 1, 1] ![0, 0, 0, 0] S4x64x30x30
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  transposes_S4x576x784_S576x784x4_1_2_0 : S4x576x784.Transposes [1, 2, 0] S576x784x4
  shapeCasts_S576x784x4_S576x3136 : S576x784x4.ShapeCasts S576x3136
  shapeCasts_S64x64x3x3_S64x576 : S64x64x3x3.ShapeCasts S64x576
  transposes_S64x576_S576x64_1_0 : S64x576.Transposes [1, 0] S576x64
  pads_S576x64_S640x64_0640_000 : S576x64.Pads (![0, 0] : Fin 2 → Nat) ![64, 0] ![0, 0] S640x64
  pads_S576x3136_S640x3328_0640_01920 : S576x3136.Pads (![0, 0] : Fin 2 → Nat) ![64, 192] ![0, 0] S640x3328
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x64_S128x64x1 : S128x64.ShapeCasts S128x64x1
  shapeCasts_S128x256_S128x1x256 : S128x256.ShapeCasts S128x1x256
  broadcasts_S128x64x1_S128x64x256 : S128x64x1.Broadcasts S128x64x256
  broadcasts_S128x1x256_S128x64x256 : S128x1x256.Broadcasts S128x64x256
  reduces_S128x64x256_S64x256 : S128x64x256.Reduces [0] S64x256
  slices_S64x3328_S64x3136_0_0 : S64x3328.Slices ![0, 0] S64x3136
  shapeCasts_S64x3136_S64x28x28x4 : S64x3136.ShapeCasts S64x28x28x4
  transposes_S64x28x28x4_S4x64x28x28_3_0_1_2 : S64x28x28x4.Transposes [3, 0, 1, 2] S4x64x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S640x64.size a
  hwx0_0 : ∀ i : grid0.Coords, EltTy.bits .f32 = 32 ∨ (Rect.block (s := S640x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S640x3328.size a
  hwx0_1 : ∀ i : grid0.Coords, EltTy.bits .f32 = 32 ∨ (Rect.block (s := S640x3328) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x3328.size a
  hwx0_2 : ∀ i : grid0.Coords, EltTy.bits .f32 = 32 ∨ (Rect.block (s := S64x3328) S64x256.size (cc0_transform_2 i) (hinb0_2 i)).WholeWords (EltTy.packing .f32)

variable [Facts₀]

abbrev win0_0 : Pipeline.Window sig grid0 :=
  Pipeline.Window.ofSpec (Memref.whole main_v69) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x64x28x28 : Shape := ⟨4, ![4, 64, 28, 28]⟩
abbrev S64x64x3x3 : Shape := ⟨4, ![64, 64, 3, 3]⟩
abbrev S_ : Shape := ⟨0, ![]⟩
abbrev S64 : Shape := ⟨1, ![64]⟩
abbrev S64x1x1x1 : Shape := ⟨4, ![64, 1, 1, 1]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S576x784x4 : Shape := ⟨3, ![576, 784, 4]⟩
abbrev S576x3136 : Shape := ⟨2, ![576, 3136]⟩
abbrev S64x576 : Shape := ⟨2, ![64, 576]⟩
abbrev S64x576x1 : Shape := ⟨3, ![64, 576, 1]⟩
abbrev S1x576x3136 : Shape := ⟨3, ![1, 576, 3136]⟩
abbrev S64x576x3136 : Shape := ⟨3, ![64, 576, 3136]⟩
abbrev S64x3136 : Shape := ⟨2, ![64, 3136]⟩
abbrev S64x28x28x4 : Shape := ⟨4, ![64, 28, 28, 4]⟩

abbrev nBuf : Space → Nat
  | .hbm => 105
  | .vmem => 0
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x64x28x28, .f32⟩
  | .hbm, ⟨15, _⟩ => ⟨S4x64x28x28, .f32⟩
  | .hbm, ⟨16, _⟩ => ⟨S4x64x28x28, .f32⟩
  | .hbm, ⟨17, _⟩ => ⟨S4x64x28x28, .f32⟩
  | .hbm, ⟨18, _⟩ => ⟨S4x64x28x28, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x64x28x28, .f32⟩
  | .hbm, ⟨23, _⟩ => ⟨S4x64x28x28, .f32⟩
  | .hbm, ⟨24, _⟩ => ⟨S_, .f32⟩
  | .hbm, ⟨25, _⟩ => ⟨S4x64x28x28, .f32⟩
  | .hbm, ⟨26, _⟩ => ⟨S4x64x28x28, .f32⟩
  | .hbm, ⟨27, _⟩ => ⟨S4x64x28x28, .f32⟩
  | .hbm, ⟨28, _⟩ => ⟨S4x64x28x28, .f32⟩
  | .hbm, ⟨29, _⟩ => ⟨S4x64x28x28, .f32⟩
  | .hbm, ⟨30, _⟩ => ⟨S4x64x28x28, .f32⟩
  | .hbm, ⟨31, _⟩ => ⟨S4x64x28x28, .f32⟩
  | .hbm, ⟨32, _⟩ => ⟨S4x64x28x28, .f32⟩
  | .hbm, ⟨33, _⟩ => ⟨S_, .f32⟩
  | .hbm, ⟨34, _⟩ => ⟨S64, .f32⟩
  | .hbm, ⟨35, _⟩ => ⟨S64x1x1x1, .f32⟩
  | .hbm, ⟨36, _⟩ => ⟨S_, .f32⟩
  | .hbm, ⟨37, _⟩ => ⟨S64, .f32⟩
  | .hbm, ⟨38, _⟩ => ⟨S64x1x1x1, .f32⟩
  | .hbm, ⟨39, _⟩ => ⟨S64x1x1x1, .f32⟩
  | .hbm, ⟨40, _⟩ => ⟨S_, .f32⟩
  | .hbm, ⟨41, _⟩ => ⟨S64x1x1x1, .f32⟩
  | .hbm, ⟨42, _⟩ => ⟨S64x1x1x1, .f32⟩
  | .hbm, ⟨43, _⟩ => ⟨S_, .f32⟩
  | .hbm, ⟨44, _⟩ => ⟨S64x1x1x1, .f32⟩
  | .hbm, ⟨45, _⟩ => ⟨S64x1x1x1, .f32⟩
  | .hbm, ⟨46, _⟩ => ⟨S64x1x1x1, .f32⟩
  | .hbm, ⟨47, _⟩ => ⟨S64x1x1x1, .f32⟩
  | .hbm, ⟨48, _⟩ => ⟨S64x1x1x1, .f32⟩
  | .hbm, ⟨49, _⟩ => ⟨S64x64x3x3, .f32⟩
  | .hbm, ⟨50, _⟩ => ⟨S64x64x3x3, .f32⟩
  | .hbm, ⟨51, _⟩ => ⟨S64x64x3x3, .f32⟩
  | .hbm, ⟨52, _⟩ => ⟨S64x64x3x3, .f32⟩
  | .hbm, ⟨53, _⟩ => ⟨S64x64x3x3, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64x64x3x3, .f32⟩
  | .hbm, ⟨58, _⟩ => ⟨S64x64x3x3, .f32⟩
  | .hbm, ⟨59, _⟩ => ⟨S_, .f32⟩
  | .hbm, ⟨60, _⟩ => ⟨S64x64x3x3, .f32⟩
  | .hbm, ⟨61, _⟩ => ⟨S64x64x3x3, .f32⟩
  | .hbm, ⟨62, _⟩ => ⟨S64x64x3x3, .f32⟩
  | .hbm, ⟨63, _⟩ => ⟨S64x64x3x3, .f32⟩
  | .hbm, ⟨64, _⟩ => ⟨S64x64x3x3, .f32⟩
  | .hbm, ⟨65, _⟩ => ⟨S64x64x3x3, .f32⟩
  | .hbm, ⟨66, _⟩ => ⟨S64x64x3x3, .f32⟩
  | .hbm, ⟨67, _⟩ => ⟨S64x64x3x3, .f32⟩
  | .hbm, ⟨68, _⟩ => ⟨S_, .i32⟩
  | .hbm, ⟨69, _⟩ => ⟨S_, .f32⟩
  | .hbm, ⟨70, _⟩ => ⟨S4x64x30x30, .f32⟩
  | .hbm, ⟨71, _⟩ => ⟨S4x64x28x28, .f32⟩
  | .hbm, ⟨72, _⟩ => ⟨S4x64x28x28, .f32⟩
  | .hbm, ⟨73, _⟩ => ⟨S4x64x28x28, .f32⟩
  | .hbm, ⟨74, _⟩ => ⟨S4x64x28x28, .f32⟩
  | .hbm, ⟨75, _⟩ => ⟨S4x64x28x28, .f32⟩
  | .hbm, ⟨76, _⟩ => ⟨S4x64x28x28, .f32⟩
  | .hbm, ⟨77, _⟩ => ⟨S4x64x28x28, .f32⟩
  | .hbm, ⟨78, _⟩ => ⟨S4x64x28x28, .f32⟩
  | .hbm, ⟨79, _⟩ => ⟨S4x64x28x28, .f32⟩
  | .hbm, ⟨80, _⟩ => ⟨S4x64x1x28x28, .f32⟩
  | .hbm, ⟨81, _⟩ => ⟨S4x64x1x28x28, .f32⟩
  | .hbm, ⟨82, _⟩ => ⟨S4x64x1x28x28, .f32⟩
  | .hbm, ⟨83, _⟩ => ⟨S4x64x1x28x28, .f32⟩
  | .hbm, ⟨84, _⟩ => ⟨S4x64x1x28x28, .f32⟩
  | .hbm, ⟨85, _⟩ => ⟨S4x64x1x28x28, .f32⟩
  | .hbm, ⟨86, _⟩ => ⟨S4x64x1x28x28, .f32⟩
  | .hbm, ⟨87, _⟩ => ⟨S4x64x1x28x28, .f32⟩
  | .hbm, ⟨88, _⟩ => ⟨S4x64x1x28x28, .f32⟩
  | .hbm, ⟨89, _⟩ => ⟨S4x64x9x28x28, .f32⟩
  | .hbm, ⟨90, _⟩ => ⟨S4x576x784, .f32⟩
  | .hbm, ⟨91, _⟩ => ⟨S576x784x4, .f32⟩
  | .hbm, ⟨92, _⟩ => ⟨S576x3136, .f32⟩
  | .hbm, ⟨93, _⟩ => ⟨S64x576, .f32⟩
  | .hbm, ⟨94, _⟩ => ⟨S64x576x1, .f32⟩
  | .hbm, ⟨95, _⟩ => ⟨S1x576x3136, .f32⟩
  | .hbm, ⟨96, _⟩ => ⟨S64x576x3136, .f32⟩
  | .hbm, ⟨97, _⟩ => ⟨S64x576x3136, .f32⟩
  | .hbm, ⟨98, _⟩ => ⟨S64x576x3136, .f32⟩
  | .hbm, ⟨99, _⟩ => ⟨S64x576x3136, .f32⟩
  | .hbm, ⟨100, _⟩ => ⟨S_, .f32⟩
  | .hbm, ⟨101, _⟩ => ⟨S64x3136, .f32⟩
  | .hbm, ⟨102, _⟩ => ⟨S64x3136, .f32⟩
  | .hbm, ⟨103, _⟩ => ⟨S64x28x28x4, .f32⟩
  | .hbm, ⟨104, _⟩ => ⟨S4x64x28x28, .f32⟩
  | _, _ => ⟨S4x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_cst_10 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c : Ref sig .tc := ⟨.hbm, 68, rfl⟩
abbrev main_call6_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  reducesTo_S4x64x28x28_S_d0_1_2_3 : S4x64x28x28.ReducesTo [0, 1, 2, 3] S_
  h_S_ : 0 < S_.numel
  bcast_S_S4x64x28x28 : S_.BroadcastsInDim S4x64x28x28 (![] : Fin 0 → Fin S4x64x28x28.rank)
  reducesTo_S64x64x3x3_S64_d1_2_3 : S64x64x3x3.ReducesTo [1, 2, 3] S64
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x64x3x3_0_1_2_3 : S64x1x1x1.BroadcastsInDim S64x64x3x3 (![0, 1, 2, 3] : Fin 4 → Fin S64x64x3x3.rank)
  bcast_S_S64x64x3x3 : S_.BroadcastsInDim S64x64x3x3 (![] : Fin 0 → Fin S64x64x3x3.rank)
  pads_S4x64x28x28_S4x64x30x30_000_000_110_110 : S4x64x28x28.Pads (![0, 0, 1, 1] : Fin 4 → Nat) ![0, 0, 1, 1] ![0, 0, 0, 0] S4x64x30x30
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  transposes_S4x576x784_S576x784x4_1_2_0 : S4x576x784.Transposes [1, 2, 0] S576x784x4
  shapeCasts_S576x784x4_S576x3136 : S576x784x4.ShapeCasts S576x3136
  shapeCasts_S64x64x3x3_S64x576 : S64x64x3x3.ShapeCasts S64x576
  bcast_S64x576_S64x576x1_0_1 : S64x576.BroadcastsInDim S64x576x1 (![0, 1] : Fin 2 → Fin S64x576x1.rank)
  bcast_S576x3136_S1x576x3136_1_2 : S576x3136.BroadcastsInDim S1x576x3136 (![1, 2] : Fin 2 → Fin S1x576x3136.rank)
  bcast_S64x576x1_S64x576x3136_0_1_2 : S64x576x1.BroadcastsInDim S64x576x3136 (![0, 1, 2] : Fin 3 → Fin S64x576x3136.rank)
  bcast_S1x576x3136_S64x576x3136_0_1_2 : S1x576x3136.BroadcastsInDim S64x576x3136 (![0, 1, 2] : Fin 3 → Fin S64x576x3136.rank)
  reducesTo_S64x576x3136_S64x3136_d1 : S64x576x3136.ReducesTo [1] S64x3136
  shapeCasts_S64x3136_S64x28x28x4 : S64x3136.ShapeCasts S64x28x28x4
  transposes_S64x28x28x4_S4x64x28x28_3_0_1_2 : S64x28x28x4.Transposes [3, 0, 1, 2] S4x64x28x28

variable [Facts₀]

class Facts : Prop extends Facts₀ where

variable [Facts]
-- ==== Proof.IdealEntry.lean ====
import proofs.«150966_j71545565217400_1_alg».proof.Proof.Gen.KernelIdeal.Launch
import proofs.«150966_j71545565217400_1_alg».proof.Proof.Gen.KernelIdeal.Skeleton
import proofs.«150966_j71545565217400_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The L1-distance kernel's region as @main enters it

@main quantizes both inputs, unfolds the activations into columns, pads both matrices with zeros up to whole
tiles (640 = 5·128 rows, 3328 = 13·256 columns), runs ONE region on the grid 13 × 5 (column tile, row tile) and then
slices, reshapes and transposes the result. This module fixes, for any float instance:

* the contents of every buffer when the region is entered (the fold of the host lines before it over the launch
  memory) and the reduction of @main to "host lines, region, host lines";
* that no host line writes an argument array, and that the lines after the region write none of the region's arrays;
* a window's block at a grid point, and that an input window's staging buffer holds its block at every point;
* the two branch conditions in closed form: with t = 5·l + k the point of column tile l and row tile k, the
  accumulator is reset iff k = 0 and the output block is written iff k = 4; the output window is idle (and not written
  back) at every other point.
-/

set_option maxRecDepth 16384

noncomputable section

namespace Cert.KernelIdeal.Adder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Every TensorCore buffer of core `c` when the region is entered: the host lines before it folded over the launch
    memory. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh⟩) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes the activations: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weight window's staging buffer holds the point's 128 × 64 block at every point, for any proof data over the
    entry contents whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column window's 128 × 256 block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the two argument arrays (no window stages either), is the frame claim's
    post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The branch conditions -/

/-- "This is the first row tile" (`k = 0`): the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last row tile" (`k = 4`): the negated accumulator is stored into the output block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last row tile the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last row tile it is live. -/
theorem liveAt0_2 : ∀ t : Fin cfg0.N, cond0_1 (grid0.coords t) → cfg0.idle 2 (grid0.coords t) = false := by decide +kernel

/-! ## The staging memrefs and the accumulator -/

/-- One staging buffer of the output window, through which its contents are stated. -/
abbrev VO0_2 : View sig .tc .vmem S64x256 .f32 := (Memref.whole cc0_stg2_0 : Memref sig .tc .vmem S64x256 .f32).view
abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
/-- The 64 × 256 accumulator the kernel carries from one row tile to the next. -/
abbrev scM0_0 : Memref sig .tc .vmem S64x256 .f32 := Memref.whole cc0_scratch0
abbrev VS0_0 : View sig .tc .vmem S64x256 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Adder

end
-- ==== Proof.IdealCaseFirst.lean ====
import proofs.«150966_j71545565217400_1_alg».proof.Proof.IdealEntry

/-!
# The body at a first row tile (k = 0)

The accumulator is overwritten with zeros and then with zeros plus this tile's column sums of |w − x|; the output
block is not touched. The pieces the run finds in the accumulator are its witness.
-/

set_option maxRecDepth 16384

noncomputable section

namespace Cert.KernelIdeal.Adder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first row tile, on whole memrefs — the weight block `x0`, the column block `x1`, the output's buffer at any
    contents `xi2` (handed back untouched), the accumulator at anything — the body runs to the continuation with the inputs and
    the output's buffer as they were and the accumulator holding the stored pieces `LS0`. -/
noncomputable def kernelRun0_A (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : cond0_0 i) (hc1 : ¬cond0_1 i)
    (x0 : Vec F S128x64 .f32) (x1 : Vec F S128x256 .f32) :
    Σ' (L2 : List (View.Piece (Elt F) S64x256 .f32)), { LS0 : List (View.Piece (Elt F) S64x256 .f32) //
      ∀ (xi2 : Vec F S64x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__adder_kernel i arg2 harg2 arg3 harg3 arg4 harg4 arg5 harg5) K } := by
  refine ⟨[], ?_, fun xi2 E K => ?run⟩
  case run =>
    simp only [cc0__adder_kernel_eq_skeleton]; unfold cc0__adder_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Adder

end
-- ==== Proof.IdealCaseMid.lean ====
import proofs.«150966_j71545565217400_1_alg».proof.Proof.IdealCaseFirst

/-!
# The body at a middle row tile (k = 1, 2, 3)

The accumulator, at what the tile before left, is overwritten with itself plus this tile's column sums of |w − x|;
the output block is not touched.
-/

set_option maxRecDepth 16384

noncomputable section

namespace Cert.KernelIdeal.Adder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle row tile: as at a first one, but the accumulator starts at the named contents `xs0`. -/
noncomputable def kernelRun0_B (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : ¬cond0_1 i)
    (x0 : Vec F S128x64 .f32) (x1 : Vec F S128x256 .f32) (xs0 : Vec F S64x256 .f32) :
    Σ' (L2 : List (View.Piece (Elt F) S64x256 .f32)), { LS0 : List (View.Piece (Elt F) S64x256 .f32) //
      ∀ (xi2 : Vec F S64x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__adder_kernel i arg2 harg2 arg3 harg3 arg4 harg4 arg5 harg5) K } := by
  refine ⟨[], ?_, fun xi2 E K => ?run⟩
  case run =>
    simp only [cc0__adder_kernel_eq_skeleton]; unfold cc0__adder_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Adder

end
-- ==== Proof.IdealCaseLast.lean ====
import proofs.«150966_j71545565217400_1_alg».proof.Proof.IdealCaseMid

/-!
# The body at a last row tile (k = 4)

The accumulator is overwritten with itself plus this tile's column sums of |w − x|, and 0 minus the result is stored
into the output block, whole.
-/

set_option maxRecDepth 16384

noncomputable section

namespace Cert.KernelIdeal.Adder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a last row tile: the accumulator starts at `xs0`, the output's buffer at anything; the body leaves the pieces
    `L2` in the output's buffer and `LS0` in the accumulator. -/
noncomputable def kernelRun0_C (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : cond0_1 i)
    (x0 : Vec F S128x64 .f32) (x1 : Vec F S128x256 .f32) (xs0 : Vec F S64x256 .f32) :
    Σ' (L2 : List (View.Piece (Elt F) S64x256 .f32)), { LS0 : List (View.Piece (Elt F) S64x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__adder_kernel i arg2 harg2 arg3 harg3 arg4 harg4 arg5 harg5) K } := by
  refine ⟨?_, ?_, fun E K => ?run⟩
  case run =>
    simp only [cc0__adder_kernel_eq_skeleton]; unfold cc0__adder_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Adder

end
-- ==== Proof.IdealFrame.lean ====
import proofs.«150966_j71545565217400_1_alg».proof.Proof.IdealCaseLast

/-!
# The region runs: the accumulator point by point, the body obligation, the frame

After the body at the point t = 5·l + k the accumulator holds, for k = 0, zeros plus the tile's column sums, and for
k > 0 what the point before left plus the tile's column sums; the output's staging buffer holds 0 minus the accumulator at
the points with k = 4 and is otherwise idle. With these contents as the region's proof data the body's three runs
discharge the body obligation at every point, the launch theorem for a region followed by host lines gives the run of
@main, and reading its post at the two argument arrays gives the frame.
-/

set_option maxRecDepth 16384

noncomputable section

namespace Cert.KernelIdeal.Adder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first row tile nothing is stored into the output's buffer: a placeholder nothing consults. -/
def out0_A_2 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : cond0_0 i) (hc1 : ¬cond0_1 i)
    (x0 : Vec F S128x64 .f32) (x1 : Vec F S128x256 .f32) : Vec F S64x256 .f32 :=
  VO0_2.read (Elt F) (VO0_2.writes (Elt F) VO0_2.junk (kernelRun0_A c i arg2 harg2 arg3 harg3 arg4 harg4 arg5 harg5 hc0 hc1 x0 x1).1)
/-- The two stores of a first row tile cover the accumulator. -/
theorem scover0_A_0 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : cond0_0 i) (hc1 : ¬cond0_1 i)
    (x0 : Vec F S128x64 .f32) (x1 : Vec F S128x256 .f32) (y : S64x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x256.size (by sl_kernel_rfl) y
/-- What a first row tile leaves in the accumulator. -/
def sout0_A_0 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : cond0_0 i) (hc1 : ¬cond0_1 i)
    (x0 : Vec F S128x64 .f32) (x1 : Vec F S128x256 .f32) : Vec F S64x256 .f32 :=
  VS0_0.read (Elt F) (VS0_0.writes (Elt F) VS0_0.junk (kernelRun0_A c i arg2 harg2 arg3 harg3 arg4 harg4 arg5 harg5 hc0 hc1 x0 x1).2.1)

/-- At a middle row tile nothing is stored into the output's buffer either. -/
def out0_B_2 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : ¬cond0_1 i)
    (x0 : Vec F S128x64 .f32) (x1 : Vec F S128x256 .f32) (xs0 : Vec F S64x256 .f32) : Vec F S64x256 .f32 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : ¬cond0_1 i)
    (x0 : Vec F S128x64 .f32) (x1 : Vec F S128x256 .f32) (xs0 : Vec F S64x256 .f32) (y : S64x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x256.size (by sl_kernel_rfl) y
/-- What a middle row tile leaves in the accumulator. -/
def sout0_B_0 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : ¬cond0_1 i)
    (x0 : Vec F S128x64 .f32) (x1 : Vec F S128x256 .f32) (xs0 : Vec F S64x256 .f32) : Vec F S64x256 .f32 :=
  VS0_0.read (Elt F) (VS0_0.writes (Elt F) VS0_0.junk (kernelRun0_B c i arg2 harg2 arg3 harg3 arg4 harg4 arg5 harg5 hc0 hc1 x0 x1 xs0).2.1)

/-- The one store of a last row tile covers the output block. -/
theorem cover0_C_2 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : cond0_1 i)
    (x0 : Vec F S128x64 .f32) (x1 : Vec F S128x256 .f32) (xs0 : Vec F S64x256 .f32) (y : S64x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S64x256.size (by sl_kernel_rfl) y
/-- What a last row tile leaves in the output's staging buffer. -/
def out0_C_2 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : cond0_1 i)
    (x0 : Vec F S128x64 .f32) (x1 : Vec F S128x256 .f32) (xs0 : Vec F S64x256 .f32) : Vec F S64x256 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : cond0_1 i)
    (x0 : Vec F S128x64 .f32) (x1 : Vec F S128x256 .f32) (xs0 : Vec F S64x256 .f32) (y : S64x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x256.size (by sl_kernel_rfl) y
/-- What a last row tile leaves in the accumulator. -/
def sout0_C_0 (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : cond0_1 i)
    (x0 : Vec F S128x64 .f32) (x1 : Vec F S128x256 .f32) (xs0 : Vec F S64x256 .f32) : Vec F S64x256 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- The output's staging buffer and the accumulator after the body at position `n`: by the row tile k = n mod 5, a
    first one from nothing, a later one over what position `n - 1` left in the accumulator. -/
def outsAt0 (c : Dev nD) : (n : ℕ) → n < cfg0.N → Vec F S64x256 .f32 × Vec F S64x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 5 = 0 then
      if h1 : (n + 1) % 5 = 4 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 5 = 4 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 5 = 0) (h1 : ¬t.val % 5 = 4) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms say which row tile the point is; the inputs' buffers hold their blocks; the
    invariant hands over the accumulator (at anything at the very first point, else at what the point before left) and
    takes it back at this point's contents; an idle output's buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 5 = 4
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      · iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      · iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 65 := N_0; omega)

/-! ## The run and the frame -/

set_option backward.isDefEq.respectTransparency.types false in
/-- Every weakly fair execution of @main terminates, with the region's arrays at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame, at any float instance: @main runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Adder

end
-- ==== Proof.AdderSpec.lean ====
import Idealize.ShloMosaic.PureOps.Ideal
import Idealize.ShloMosaic.PureOps.Ideal.Laws
import Idealize.ShloMosaic.Lib.ValueIdx
import Mathlib.Algebra.BigOperators.Fin

/-!
# The L1-distance product, tile by tile and whole

For a weight matrix W (64 × 576) and a column matrix X (576 × 3136) the operator is
out[f, l] = −(0 + Σ_k |W[f, k] − X[k, l]|) over the extended reals. The kernel works on the zero-padded transposed
weights Wp (640 × 64) and the zero-padded columns Xp (640 × 3328), five row tiles of 128 at a time: it starts an
accumulator at 0 + (tile 0's sum) and adds the later tiles' sums one by one. A padded row contributes |0 − 0| = 0, and
addition of extended reals is commutative and associative, so the five-tile accumulation is the whole sum.
-/

noncomputable section

namespace L1Spec

open Idealize.ShloMosaic Idealize.ShloMosaic.ValueIdx

/-- |a − b| as the kernel and the reference both compute it at the ideal instance: the larger of a − b and its negation. -/
def absd (a b : EReal) : EReal := max (a - b) (-(a - b))

theorem absd_zero : absd 0 0 = 0 := by
  simp [absd]

/-- Row tile `kb`'s contribution at (f, l): the sum over its 128 rows of |Wp[128·kb + r, f] − Xp[128·kb + r, l]|. -/
def tileSum (Wp : (⟨2, ![640, 64]⟩ : Shape).Idx → EReal) (Xp : (⟨2, ![640, 3328]⟩ : Shape).Idx → EReal)
    (kb : ℕ) (hkb : kb < 5) (f : Fin 64) (l : Fin 3328) : EReal :=
  ∑ r : Fin 128, absd (Wp (ix2 (⟨128 * kb + r.val, by omega⟩ : Fin 640) f)) (Xp (ix2 (⟨128 * kb + r.val, by omega⟩ : Fin 640) l))

/-- The accumulator after row tile `kb`, in the kernel's own order: 0 + tile 0, then + tile 1, …  -/
def accUpTo (Wp : (⟨2, ![640, 64]⟩ : Shape).Idx → EReal) (Xp : (⟨2, ![640, 3328]⟩ : Shape).Idx → EReal) :
    (kb : ℕ) → kb < 5 → Fin 64 → Fin 3328 → EReal
  | 0, h, f, l => 0 + tileSum Wp Xp 0 h f l
  | kb + 1, h, f, l => accUpTo Wp Xp kb (Nat.lt_of_succ_lt h) f l + tileSum Wp Xp (kb + 1) h f l

/-- The row-indexed summand extended by zero beyond row 639, so that sums over tiles and over all rows are sums over
ranges of naturals. -/
def rowTerm (Wp : (⟨2, ![640, 64]⟩ : Shape).Idx → EReal) (Xp : (⟨2, ![640, 3328]⟩ : Shape).Idx → EReal)
    (f : Fin 64) (l : Fin 3328) (n : ℕ) : EReal :=
  if h : n < 640 then absd (Wp (ix2 (⟨n, h⟩ : Fin 640) f)) (Xp (ix2 (⟨n, h⟩ : Fin 640) l)) else 0

/-- A tile's contribution is the sum of the row summands over its 128 consecutive rows. -/
theorem tileSum_eq_range (Wp : (⟨2, ![640, 64]⟩ : Shape).Idx → EReal) (Xp : (⟨2, ![640, 3328]⟩ : Shape).Idx → EReal)
    (kb : ℕ) (hkb : kb < 5) (f : Fin 64) (l : Fin 3328) :
    tileSum Wp Xp kb hkb f l = ∑ r ∈ Finset.range 128, rowTerm Wp Xp f l (128 * kb + r) := by
  rw [← Fin.sum_univ_eq_sum_range (fun r => rowTerm Wp Xp f l (128 * kb + r)) 128]
  unfold tileSum
  refine Finset.sum_congr rfl (fun r _ => ?_)
  have h : 128 * kb + r.val < 640 := by omega
  simp only [rowTerm, dif_pos h]

/-- After tile `kb` the accumulator is 0 plus the sum of the row summands over rows 0 … 128·(kb+1) − 1. -/
theorem accUpTo_eq_range (Wp : (⟨2, ![640, 64]⟩ : Shape).Idx → EReal) (Xp : (⟨2, ![640, 3328]⟩ : Shape).Idx → EReal)
    (f : Fin 64) (l : Fin 3328) :
    ∀ (kb : ℕ) (hkb : kb < 5),
      accUpTo Wp Xp kb hkb f l = 0 + ∑ n ∈ Finset.range (128 * (kb + 1)), rowTerm Wp Xp f l n
  | 0, h => by
    rw [accUpTo, tileSum_eq_range]
    simp
  | kb + 1, h => by
    rw [accUpTo, accUpTo_eq_range Wp Xp f l kb (Nat.lt_of_succ_lt h), tileSum_eq_range, add_assoc,
      ← Finset.sum_range_add, show 128 * (kb + 1) + 128 = 128 * (kb + 1 + 1) by ring]

/-- With rows 576 … 639 of both padded matrices zero, the five tiles' accumulation is the sum over the 576 real rows. -/
theorem accUpTo_last (Wp : (⟨2, ![640, 64]⟩ : Shape).Idx → EReal) (Xp : (⟨2, ![640, 3328]⟩ : Shape).Idx → EReal)
    (hW : ∀ (k : Fin 640) (f : Fin 64), 576 ≤ k.val → Wp (ix2 k f) = 0)
    (hX : ∀ (k : Fin 640) (l : Fin 3328), 576 ≤ k.val → Xp (ix2 k l) = 0) (f : Fin 64) (l : Fin 3328) :
    accUpTo Wp Xp 4 (by omega) f l
      = 0 + ∑ k : Fin 576, absd (Wp (ix2 (⟨k.val, by omega⟩ : Fin 640) f)) (Xp (ix2 (⟨k.val, by omega⟩ : Fin 640) l)) := by
  rw [accUpTo_eq_range Wp Xp f l 4 (by omega), show 128 * (4 + 1) = 576 + 64 by norm_num, Finset.sum_range_add]
  have htail : ∑ x ∈ Finset.range 64, rowTerm Wp Xp f l (576 + x) = 0 := by
    refine Finset.sum_eq_zero (fun x hx => ?_)
    have hx' : x < 64 := Finset.mem_range.mp hx
    have h : 576 + x < 640 := by omega
    simp only [rowTerm, dif_pos h]
    rw [hW ⟨576 + x, h⟩ f (by simp), hX ⟨576 + x, h⟩ l (by simp), absd_zero]
  rw [htail, add_zero, ← Fin.sum_univ_eq_sum_range (fun n => rowTerm Wp Xp f l n) 576]
  refine congrArg (fun t => 0 + t) (Finset.sum_congr rfl (fun k _ => ?_))
  have h : k.val < 640 := by omega
  simp only [rowTerm, dif_pos h]

end L1Spec

end
-- ==== Proof.IdealPayload.lean ====
import proofs.«150966_j71545565217400_1_alg».proof.Proof.Gen.KernelIdeal.Skeleton
import proofs.«150966_j71545565217400_1_alg».proof.Proof.AdderSpec
import Idealize.ShloMosaic.Lib.ValueIdx
import Idealize.ShloMosaic.Lib.ValueLayout
import Idealize.ShloMosaic.Lib.Pipeline.Value
import Idealize.ShloMosaic.PureOps.Ideal.Laws

/-!
# The body's three stored values, index by index, at the ideal instance

* the reset stores 0 everywhere;
* the update stores, at (f, j), the accumulator's entry plus the sum over the tile's 128 rows r of
  |w[r, f] − x[r, j]|: the weight block is cast to 128 × 64 × 1 and broadcast along the columns, the column block to
  128 × 1 × 256 and broadcast along the filters, their difference's absolute value is summed over the leading axis;
* the output store is 0 minus the accumulator.
-/

noncomputable section

namespace Cert.KernelIdeal.Adder

open Cert.KernelIdeal Cert.KernelIdeal.Gen
open Idealize.ShloMosaic Idealize.ShloMosaic.TcCoe Idealize.ShloMosaic.ValueIdx Idealize.SL.Sem
open L1Spec

theorem pay_reset (j : S64x256.Idx) : (k0_pay1 (F := Ideal)) j = 0 := by
  unfold k0_pay1
  simp only [shapeCast_self]
  exact Ideal.ofBits_zero_f32

/-- A 128 × 64 block cast to 128 × 64 × 1 reads, at (r, f, u), the block at (r, f). -/
theorem cast_w_apply {α : Type} (x : S128x64.Idx → α) (h : S128x64.ShapeCasts S128x64x1)
    (r : Fin 128) (f : Fin 64) (u : Fin 1) : shapeCast S128x64x1 x h (ix3 r f u) = x (ix2 r f) :=
  shapeCast_apply x h _ _ (by
    have hu : u.val = 0 := by omega
    rw [Shape.rowMajor_val_two, Shape.rowMajor_val_three]
    show r.val * 64 + f.val = (r.val * 64 + f.val) * 1 + u.val
    omega)

/-- A 128 × 256 block cast to 128 × 1 × 256 reads, at (r, u, j), the block at (r, j). -/
theorem cast_x_apply {α : Type} (x : S128x256.Idx → α) (h : S128x256.ShapeCasts S128x1x256)
    (r : Fin 128) (u : Fin 1) (j : Fin 256) : shapeCast S128x1x256 x h (ix3 r u j) = x (ix2 r j) :=
  shapeCast_apply x h _ _ (by
    have hu : u.val = 0 := by omega
    rw [Shape.rowMajor_val_two, Shape.rowMajor_val_three]
    show r.val * 256 + j.val = (r.val * 1 + u.val) * 256 + j.val
    omega)

/-- A 128 × 64 × 1 array broadcast along the columns reads, at (r, f, j), the array at (r, f, 0). -/
theorem bcast_w_apply {α : Type} (x : S128x64x1.Idx → α) (h : S128x64x1.Broadcasts S128x64x256)
    (r : Fin 128) (f : Fin 64) (j : Fin 256) :
    broadcastTo S128x64x256 x h (ix3 r f j) = x (ix3 r f (0 : Fin 1)) :=
  broadcastTo_apply x h _ _ (fun a => match a with | ⟨0, _⟩ => rfl | ⟨1, _⟩ => rfl | ⟨2, _⟩ => rfl)

/-- A 128 × 1 × 256 array broadcast along the filters reads, at (r, f, j), the array at (r, 0, j). -/
theorem bcast_x_apply {α : Type} (x : S128x1x256.Idx → α) (h : S128x1x256.Broadcasts S128x64x256)
    (r : Fin 128) (f : Fin 64) (j : Fin 256) :
    broadcastTo S128x64x256 x h (ix3 r f j) = x (ix3 r (0 : Fin 1) j) :=
  broadcastTo_apply x h _ _ (fun a => match a with | ⟨0, _⟩ => rfl | ⟨1, _⟩ => rfl | ⟨2, _⟩ => rfl)

/-- The index (f, j) of the reduced 64 × 256 array with the row coordinate r inserted in front is (r, f, j). -/
theorem lift_eq_ix3 (h : S128x64x256.Reduces [0] S64x256) (f : Fin 64) (j : Fin 256) (r : Fin 128) :
    h.lift (ix2 f j) r = ix3 r f j :=
  funext fun c => Fin.ext (match c with | ⟨0, _⟩ => rfl | ⟨1, _⟩ => rfl | ⟨2, _⟩ => rfl)

/-- The sum over the leading axis of a 128 × 64 × 256 array reads, at (f, j), the sum over the rows r of the array at
(r, f, j). -/
theorem sum_rows_apply (src : FVec Ideal S128x64x256 .f32) (h : S128x64x256.Reduces [0] S64x256)
    (hφ : FKind.Formats .f32) (hacc : (0x00000000#32 : BitVec 32) = 0x00000000#32) (f : Fin 64) (j : Fin 256) :
    multiReduction (F := Ideal) .add [0] S64x256 src 0x00000000#32 h hφ hacc (ix2 f j)
      = ∑ r : Fin 128, src (ix3 r f j) := by
  refine (Ideal.multiReduction_add_single src 0x00000000#32 h hφ hacc (ix2 f j)).trans ?_
  exact Finset.sum_congr rfl fun r _ => congrArg src (lift_eq_ix3 h f j r)

theorem pay_acc (x0 : Vec Ideal S128x64 .f32) (x1 : Vec Ideal S128x256 .f32) (acc : Vec Ideal S64x256 .f32)
    (f : Fin 64) (j : Fin 256) :
    k0_pay2 x0 x1 acc (ix2 f j) = acc (ix2 f j) + ∑ r : Fin 128, absd (x0 (ix2 r f)) (x1 (ix2 r j)) := by
  unfold k0_pay2
  simp only [shapeCast_self]
  rw [addf_apply]
  refine congrArg (fun t => acc (ix2 f j) + t) ?_
  refine (sum_rows_apply _ reduces_S128x64x256_S64x256 _ _ f j).trans ?_
  refine Finset.sum_congr rfl fun (r : Fin 128) _ => ?_
  show FloatOps.absf (subf _ _ (ix3 r f j)) = _
  rw [Ideal.absf_def, subf_apply, bcast_w_apply, bcast_x_apply, cast_w_apply, cast_x_apply]
  rfl

theorem pay_neg (v : Vec Ideal S64x256 .f32) (j : S64x256.Idx) : k0_pay3 v j = 0 - v j := by
  unfold k0_pay3
  rw [subf_apply, broadcast_apply]
  exact congrArg (fun t => t - v j) Ideal.ofBits_zero_f32

end Cert.KernelIdeal.Adder

end
-- ==== Proof.IdealValue.lean ====
import proofs.«150966_j71545565217400_1_alg».proof.Proof.IdealFrame
import proofs.«150966_j71545565217400_1_alg».proof.Proof.IdealPayload
import Idealize.ShloMosaic.Lib.Pipeline.Value

/-!
# What the region leaves in its result array, at the ideal instance

The three runs' stored pieces read back as the body's payloads: a first row tile leaves "zeros, then the update of zeros"
in the accumulator, a later one the update of what the tile before left; a last row tile leaves 0 minus the accumulator in the
output block. An input window's block at the point t = 5·l + k is rows 128·k … of the padded weights, and rows 128·k …,
columns 256·l … of the padded columns. By induction on the point the accumulator after t is the tile-by-tile accumulation
`accUpTo` up to row tile k, at columns 256·l …; the output block of column tile l, written back after k = 4, is 0 minus the
full accumulation; the thirteen blocks cover the 64 × 3328 result array.
-/

set_option maxRecDepth 16384

noncomputable section

namespace Cert.KernelIdeal.Adder

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open L1Spec

/-! ## The stored pieces are the payloads (any float instance) -/

section Pieces

variable {F : FTy → Type} [FloatOps F]

theorem hz : (![0, 0] : Fin 2 → Nat) = fun _ => 0 := funext fun a => by fin_cases a <;> rfl

/-- A first row tile leaves the update of the zero block. -/
theorem sout_A (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : cond0_0 i) (hc1 : ¬cond0_1 i)
    (x0 : Vec F S128x64 .f32) (x1 : Vec F S128x256 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S64x256) hz, View.readCov_unit_zero (S := S64x256) _ hz]
  simp only [View.readAt_eq_ld, harg2.read_unread, harg3.read_unread, View.ld_unit_zero (S := S128x64) hz, View.ld_unit_zero (S := S128x256) hz]

/-- A middle row tile leaves the update of what it found. -/
theorem sout_B (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : ¬cond0_1 i)
    (x0 : Vec F S128x64 .f32) (x1 : Vec F S128x256 .f32) (xs0 : Vec F S64x256 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S128x64) hz, View.ld_unit_zero (S := S128x256) hz, View.ld_unit_zero (S := S64x256) hz]

/-- So does a last row tile, in the accumulator; -/
theorem sout_C (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : cond0_1 i)
    (x0 : Vec F S128x64 .f32) (x1 : Vec F S128x256 .f32) (xs0 : Vec F S64x256 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S128x64) hz, View.ld_unit_zero (S := S128x256) hz, View.ld_unit_zero (S := S64x256) hz]

/-- and in the output block it leaves 0 minus that. -/
theorem out_C (c : Dev nD) (i : grid0.Coords) (arg2 : Memref sig .tc .vmem S128x64 .f32) (harg2 : arg2.IsWhole) (arg3 : Memref sig .tc .vmem S128x256 .f32) (harg3 : arg3.IsWhole) (arg4 : Memref sig .tc .vmem S64x256 .f32) (harg4 : arg4.IsWhole) (arg5 : Memref sig .tc .vmem S64x256 .f32) (harg5 : arg5.IsWhole) (hc0 : ¬cond0_0 i) (hc1 : cond0_1 i)
    (x0 : Vec F S128x64 .f32) (x1 : Vec F S128x256 .f32) (xs0 : Vec F S64x256 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S64x256) _ hz]
  simp only [View.readAt_eq_ld, harg2.read_unread, harg3.read_unread, harg5.read_unread, View.ld_unit_zero (S := S128x64) hz, View.ld_unit_zero (S := S128x256) hz, View.ld_unit_zero (S := S64x256) hz]

end Pieces

/-! ## The blocks, the accumulator and the result array at the ideal instance -/

section Value

variable (m : (ℓ : Loc nD τ sig) → Buf (Elt Ideal) ℓ)

/-- The zero-padded transposed weights and the zero-padded columns, as the region finds them. -/
abbrev Wp (c : Dev nD) : S640x64.Idx → EReal := V m c main_v69
abbrev Xp (c : Dev nD) : S640x3328.Idx → EReal := V m c main_v70

/-- The point's two input blocks, at their literal types. -/
abbrev wblk (c : Dev nD) (t : Fin cfg0.N) : Vec Ideal S128x64 .f32 := iblk m c 0 t
abbrev xblk (c : Dev nD) (t : Fin cfg0.N) : Vec Ideal S128x256 .f32 := iblk m c 1 t

/-- The three index maps over the grid: at the point t the weight window is at block row t mod 5, the column window at
    block (t mod 5, t div 5), the output window at block column t div 5. -/
theorem idx_facts : ∀ t : Fin cfg0.N, win0_0.index t (0 : Fin 2) = t.val % 5 ∧ win0_0.index t (1 : Fin 2) = 0
    ∧ win0_1.index t (0 : Fin 2) = t.val % 5 ∧ win0_1.index t (1 : Fin 2) = t.val / 5
    ∧ win0_2.index t (0 : Fin 2) = 0 ∧ win0_2.index t (1 : Fin 2) = t.val / 5 :=
  (by decide +kernel : ∀ t : Fin grid0.N, _)

theorem lt65 (t : Fin cfg0.N) : t.val < 65 := lt_of_lt_of_eq t.isLt N_0

/-- The weight block at the point t is rows 128·(t mod 5) … of the padded weights. -/
theorem wblk_apply (c : Dev nD) (t : Fin cfg0.N) (r : Fin 128) (f : Fin 64) :
    wblk m c t (ix2 r f) = Wp m c (ix2 (⟨128 * (t.val % 5) + r.val, by omega⟩ : Fin 640) f) := by
  obtain ⟨e0, e1, -⟩ := idx_facts t
  unfold wblk iblk
  rw [View.read_apply]
  show V m c main_v69 _ = V m c main_v69 _
  refine congrArg _ ?_
  funext a; apply Fin.ext
  match a with
  | ⟨0, _⟩ => show win0_0.index t (0 : Fin 2) * 128 + 1 * r.val = 128 * (t.val % 5) + r.val; rw [e0]; omega
  | ⟨1, _⟩ => show win0_0.index t (1 : Fin 2) * 64 + 1 * f.val = f.val; rw [e1]; omega

/-- The column block at the point t is rows 128·(t mod 5) …, columns 256·(t div 5) … of the padded columns. -/
theorem xblk_apply (c : Dev nD) (t : Fin cfg0.N) (r : Fin 128) (j : Fin 256) :
    xblk m c t (ix2 r j)
      = Xp m c (ix2 (⟨128 * (t.val % 5) + r.val, by omega⟩ : Fin 640) (⟨256 * (t.val / 5) + j.val, by have := lt65 t; omega⟩ : Fin 3328)) := by
  obtain ⟨-, -, e0, e1, -⟩ := idx_facts t
  unfold xblk iblk
  rw [View.read_apply]
  show V m c main_v70 _ = V m c main_v70 _
  refine congrArg _ ?_
  funext a; apply Fin.ext
  match a with
  | ⟨0, _⟩ => show win0_1.index t (0 : Fin 2) * 128 + 1 * r.val = 128 * (t.val % 5) + r.val; rw [e0]; omega
  | ⟨1, _⟩ => show win0_1.index t (1 : Fin 2) * 256 + 1 * j.val = 256 * (t.val / 5) + j.val; rw [e1]; omega

/-- The column of the result array that entry j of the point's output block is. -/
abbrev colAt (t : Fin cfg0.N) (j : Fin 256) : Fin 3328 := ⟨256 * (t.val / 5) + j.val, by have := lt65 t; omega⟩
/-- The point's row tile. -/
abbrev tileOf (t : Fin cfg0.N) : t.val % 5 < 5 := Nat.mod_lt _ (by decide)

/-- The update at the point t adds the specification's tile sum. -/
theorem upd_at (c : Dev nD) (t : Fin cfg0.N) (acc : Vec Ideal S64x256 .f32) (f : Fin 64) (j : Fin 256) :
    k0_pay2 (wblk m c t) (xblk m c t) acc (ix2 f j)
      = acc (ix2 f j) + tileSum (Wp m c) (Xp m c) (t.val % 5) (tileOf t) f (colAt t j) := by
  rw [pay_acc]
  refine congrArg _ ?_
  unfold tileSum
  refine Finset.sum_congr rfl fun r _ => ?_
  rw [wblk_apply, xblk_apply]

theorem accUpTo_first (Wp : S640x64.Idx → EReal) (Xp : S640x3328.Idx → EReal) (k : ℕ) (hk : k < 5) (e : k = 0) (f : Fin 64) (l : Fin 3328) :
    accUpTo Wp Xp k hk f l = 0 + tileSum Wp Xp k hk f l := by subst e; rfl

theorem accUpTo_next (Wp : S640x64.Idx → EReal) (Xp : S640x3328.Idx → EReal) (k : ℕ) (hk : k < 5) (k' : ℕ) (hk' : k' < 5) (e : k = k' + 1)
    (f : Fin 64) (l : Fin 3328) :
    accUpTo Wp Xp k hk f l = accUpTo Wp Xp k' hk' f l + tileSum Wp Xp k hk f l := by subst e; rfl

theorem accUpTo_congr (Wp : S640x64.Idx → EReal) (Xp : S640x3328.Idx → EReal) (k k' : ℕ) (hk : k < 5) (hk' : k' < 5) (e : k = k')
    (f f' : Fin 64) (ef : f = f') (l l' : Fin 3328) (el : l = l') : accUpTo Wp Xp k hk f l = accUpTo Wp Xp k' hk' f' l' := by
  subst e; subst ef; subst el; rfl

/-- What the accumulator is claimed to hold after position n. -/
abbrev accSpec (c : Dev nD) (n : ℕ) (h : n < cfg0.N) (f : Fin 64) (j : Fin 256) : EReal :=
  accUpTo (Wp m c) (Xp m c) (n % 5) (Nat.mod_lt _ (by decide)) f
    (⟨256 * (n / 5) + j.val, by have : n < 65 := lt_of_lt_of_eq h N_0; omega⟩ : Fin 3328)

/-- At a first row tile the accumulator holds 0 + the tile's sum. -/
theorem acc_first (c : Dev nD) (t : Fin cfg0.N) (h0 : t.val % 5 = 0) (f : Fin 64) (j : Fin 256) :
    ((outsAt0 m c t.val t.isLt).2 : Vec Ideal S64x256 .f32) (ix2 f j) = accSpec m c t.val t.isLt f j := by
  have h1 : ¬t.val % 5 = 4 := by omega
  rw [outsAt0_A m c t h0 h1]
  dsimp only
  rw [sout_A]
  show k0_pay2 (wblk m c t) (xblk m c t) (k0_pay1 (F := Ideal)) (ix2 f j) = _
  rw [upd_at, pay_reset]
  exact (accUpTo_first _ _ _ _ h0 f _).symm

/-- At a later row tile it holds what the point before left plus the tile's sum. -/
theorem acc_later (c : Dev nD) (t : Fin cfg0.N) (h0 : ¬t.val % 5 = 0) (f : Fin 64) (j : Fin 256)
    (ih : ((outsAt0 m c (t.val - 1) (Nat.lt_of_le_of_lt (Nat.sub_le _ _) t.isLt)).2 : Vec Ideal S64x256 .f32) (ix2 f j)
      = accSpec m c (t.val - 1) (Nat.lt_of_le_of_lt (Nat.sub_le _ _) t.isLt) f j) :
    ((outsAt0 m c t.val t.isLt).2 : Vec Ideal S64x256 .f32) (ix2 f j) = accSpec m c t.val t.isLt f j := by
  have hN := lt65 t
  have hk : t.val % 5 = (t.val - 1) % 5 + 1 := by omega
  have hl : (⟨256 * (t.val / 5) + j.val, by omega⟩ : Fin 3328) = ⟨256 * ((t.val - 1) / 5) + j.val, by omega⟩ :=
    Fin.ext (by show 256 * (t.val / 5) + j.val = 256 * ((t.val - 1) / 5) + j.val; omega)
  have key : ∀ acc : Vec Ideal S64x256 .f32, acc (ix2 f j) = accSpec m c (t.val - 1) (Nat.lt_of_le_of_lt (Nat.sub_le _ _) t.isLt) f j →
      k0_pay2 (wblk m c t) (xblk m c t) acc (ix2 f j) = accSpec m c t.val t.isLt f j := by
    intro acc hacc
    rw [upd_at, hacc]
    unfold accSpec
    rw [accUpTo_next _ _ (t.val % 5) _ ((t.val - 1) % 5) (Nat.mod_lt _ (by decide)) hk f _, hl]
    rw [show colAt t j = (⟨256 * ((t.val - 1) / 5) + j.val, by omega⟩ : Fin 3328) from hl]
  by_cases h1 : t.val % 5 = 4
  · rw [outsAt0_C m c t h0 h1]
    dsimp only
    rw [sout_C]
    exact key _ ih
  · rw [outsAt0_B m c t h0 h1]
    dsimp only
    rw [sout_B]
    exact key _ ih

/-- THE ACCUMULATOR after the position n = 5·l + k holds the accumulation up to row tile k at columns 256·l …. -/
theorem acc_at (c : Dev nD) : ∀ (n : ℕ) (h : n < cfg0.N) (f : Fin 64) (j : Fin 256),
    ((outsAt0 m c n h).2 : Vec Ideal S64x256 .f32) (ix2 f j) = accSpec m c n h f j := by
  intro n
  induction n with
  | zero => intro h f j; exact acc_first m c ⟨0, h⟩ rfl f j
  | succ n ih =>
    intro h f j
    by_cases h0 : (n + 1) % 5 = 0
    · exact acc_first m c ⟨n + 1, h⟩ h0 f j
    · exact acc_later m c ⟨n + 1, h⟩ h0 f j (ih (Nat.lt_of_succ_lt h) f j)

/-- The result array's contents: 0 minus the full accumulation. -/
def G (c : Dev nD) : S64x3328.Idx → EReal := fun i => 0 - accUpTo (Wp m c) (Xp m c) 4 (by decide) (i 0) (i 1)

/-- What a last row tile's point writes back is its block of `G`. -/
theorem flushed_eq (c : Dev nD) (t : Fin cfg0.N) (hf : (cfg0.win 2).flush t = true) :
    (dats m 0 c).flushed 2 t = ((cfg0.win 2).blk t).view.read (Elt Ideal) (G m c) := by
  have h1 : t.val % 5 = 4 := (flush0_2 t).mp hf
  have h0 : ¬t.val % 5 = 0 := by omega
  have hN := lt65 t
  obtain ⟨-, -, -, -, e0, e1⟩ := idx_facts t
  have hacc : ∀ (f : Fin 64) (j : Fin 256), k0_pay2 (wblk m c t) (xblk m c t) (outsAt0 m c (t.val - 1) (Nat.lt_of_le_of_lt (Nat.sub_le _ _) t.isLt)).2 (ix2 f j)
      = accSpec m c t.val t.isLt f j := by
    intro f j
    rw [← acc_at m c t.val t.isLt f j, outsAt0_C m c t h0 h1]
    dsimp only
    rw [sout_C]
  show (cfg0.win 2).cut (grid0.coords t) ((dats m 0 c).after 2 t) = _
  rw [after0_2, outsAt0_C m c t h0 h1]
  dsimp only
  rw [out_C]
  funext y
  obtain ⟨f, j, rfl⟩ : ∃ (f : Fin 64) (j : Fin 256), y = ix2 f j := ⟨y 0, y 1, eq_ix2 y⟩
  rw [View.read_apply]
  show k0_pay3 (k0_pay2 (wblk m c t) (xblk m c t) _) (ix2 f j) = G m c _
  rw [pay_neg, hacc f j]
  unfold G accSpec
  refine congrArg _ (accUpTo_congr _ _ _ _ _ _ h1 _ _ ?_ _ _ ?_)
  · apply Fin.ext
    show f.val = win0_2.index t (0 : Fin 2) * 64 + 1 * f.val
    rw [e0]; omega
  · apply Fin.ext
    show 256 * (t.val / 5) + j.val = win0_2.index t (1 : Fin 2) * 256 + 1 * j.val
    rw [e1]; omega

/-- Every index of the 64 × 3328 result array lies in the block some last-row-tile point writes back. -/
theorem covered (i : S64x3328.Idx) : ∃ t : Fin cfg0.N, (cfg0.win 2).flush t = true ∧ i ∈ ((cfg0.win 2).blk t).view.set := by
  have hi0 : (i 0).val < 64 := (i 0).isLt
  have hi1 : (i 1).val < 3328 := (i 1).isLt
  have hN : cfg0.N = 65 := N_0
  let t : Fin cfg0.N := ⟨5 * ((i 1).val / 256) + 4, by omega⟩
  have ht : t.val = 5 * ((i 1).val / 256) + 4 := rfl
  obtain ⟨-, -, -, -, e0, e1⟩ := idx_facts t
  refine ⟨t, (flush0_2 t).mpr (by omega), ?_⟩
  show i ∈ ((View.whole main_v71).slice (win0_2.rect t)).set
  rw [View.set_slice_whole, Rect.mem_set_unit]
  intro a
  match a with
  | ⟨0, _⟩ => show win0_2.index t (0 : Fin 2) * 64 ≤ (i 0).val ∧ (i 0).val < win0_2.index t (0 : Fin 2) * 64 + 64; rw [e0]; omega
  | ⟨1, _⟩ => show win0_2.index t (1 : Fin 2) * 256 ≤ (i 1).val ∧ (i 1).val < win0_2.index t (1 : Fin 2) * 256 + 256; rw [e1]; omega

/-- THE RESULT ARRAY after the run is 0 minus the full five-tile accumulation, everywhere. -/
theorem final (c : Dev nD) : (dats m 0 c).arrAt 2 cfg0.N = G m c :=
  (dats m 0 c).arrAt_eq_of_cover 2 (G m c) (flushed_eq m c) (covered)

end Value

end Cert.KernelIdeal.Adder

end
-- ==== Proof.IdealHostReads.lean ====
import proofs.«150966_j71545565217400_1_alg».proof.Proof.IdealEntry
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

/-!
# The host lines next to the region, read at an index

Before the region: the weight matrix (64 × 576) is transposed and padded below with 64 zero rows to 640 × 64; the
column matrix (576 × 3136) is padded below with 64 zero rows and on the right with 192 zero columns to 640 × 3328.
After the region: the 64 × 3328 result is cut back to 64 × 3136, reshaped to 64 × 28 × 28 × 4 and transposed to
4 × 64 × 28 × 28.
-/

set_option maxRecDepth 16384

noncomputable section

namespace Cert.KernelIdeal.Adder

open Cert.KernelIdeal Cert.KernelIdeal.Gen
open Idealize.ShloMosaic Idealize.ShloMosaic.TcCoe Idealize.ShloMosaic.ValueIdx Idealize.SL.Sem
open Idealize.ShloMosaic.Pipeline (Dat)

/-! ## The last host lines before the region, at any float instance -/

/-- The seven host lines after the weight matrix and the column matrix are written: the transpose of the weights, the two
    integer zeros and their conversions, and the two pads. -/
abbrev tailOps {F : FTy → Type} [FloatOps F] : List (HloOp τ sig (Elt F)) :=
  [ StableHlo.unary main_v67 main_v68 ((transpose S576x64 [1, 0] · transposes_S64x576_S576x64_1_0) : (⟨S64x576, .f32⟩ : BufTy).Contents (Elt F) → (⟨S576x64, .f32⟩ : BufTy).Contents (Elt F)),
    StableHlo.nullary main_c_11 (constantI S_ 32 0#32),
    StableHlo.TRef.unary (.of main_c_11 : StableHlo.TRef sig ⟨S_, .i32⟩) (.of main_call7_v0 : StableHlo.TRef sig ⟨S_, .f32⟩) (sitofp .f32),
    StableHlo.TRef.binary (.of main_v68 : StableHlo.TRef sig ⟨S576x64, .f32⟩) (.of main_call7_v0 : StableHlo.TRef sig ⟨S_, .f32⟩) (.of main_v69 : StableHlo.TRef sig ⟨S640x64, .f32⟩) (fun x v => pad S640x64 ![0, 0] ![64, 0] ![0, 0] x v pads_S576x64_S640x64_0640_000 h_S_),
    StableHlo.nullary main_c_12 (constantI S_ 32 0#32),
    StableHlo.TRef.unary (.of main_c_12 : StableHlo.TRef sig ⟨S_, .i32⟩) (.of main_call8_v0 : StableHlo.TRef sig ⟨S_, .f32⟩) (sitofp .f32),
    StableHlo.TRef.binary (.of main_v66 : StableHlo.TRef sig ⟨S576x3136, .f32⟩) (.of main_call8_v0 : StableHlo.TRef sig ⟨S_, .f32⟩) (.of main_v70 : StableHlo.TRef sig ⟨S640x3328, .f32⟩) (fun x v => pad S640x3328 ![0, 0] ![64, 192] ![0, 0] x v pads_S576x3136_S640x3328_0640_01920 h_S_) ]

section Any
variable {F : FTy → Type} [FloatOps F]
variable (m : (ℓ : Loc nD τ sig) → Buf (Elt F) ℓ)

/-- The contents at the region's entry are the seven last host lines run from some contents. -/
theorem V0_cut (c : Dev nD) : ∃ W : Valuation τ sig (Elt F), V0 m c = StableHlo.after tailOps W := by
  refine ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13] ++ hostOps0_14.take 23) (fun b => m (c, b)), ?_⟩
  rw [← StableHlo.after_append]
  rfl

/-- None of the seven writes a buffer other than their seven results. -/
theorem tailOps_keeps (W : Valuation τ sig (Elt F)) (r : Ref sig .tc)
    (hr : r ≠ main_v68 ∧ r ≠ main_c_11 ∧ r ≠ main_call7_v0 ∧ r ≠ main_v69 ∧ r ≠ main_c_12 ∧ r ≠ main_call8_v0 ∧ r ≠ main_v70) :
    StableHlo.after tailOps W (Proc.devRef .tc r) = W (Proc.devRef .tc r) :=
  StableHlo.after_of_forall_not_mem (b := Proc.devRef .tc r) _ _ (List.forall_iff_forall_mem.mp (by
    simp only [tailOps, List.Forall, StableHlo.nullary_writes, StableHlo.unary_writes, StableHlo.binary_writes, Finset.mem_singleton]
    obtain ⟨h1, h2, h3, h4, h5, h6, h7⟩ := hr
    exact ⟨StableHlo.devRef_ne_of_ne h1, StableHlo.devRef_ne_of_ne h2, StableHlo.devRef_ne_of_ne h3, StableHlo.devRef_ne_of_ne h4,
      StableHlo.devRef_ne_of_ne h5, StableHlo.devRef_ne_of_ne h6, StableHlo.devRef_ne_of_ne h7⟩))

/-- The padded weights are the pad of the transposed weight matrix by the converted integer zero. -/
theorem V69_eq (c : Dev nD) :
    (V m c main_v69 : S640x64.Idx → Elt F .f32)
      = pad S640x64 ![0, 0] ![64, 0] ![0, 0]
          (transpose S576x64 [1, 0] (V m c main_v67 : S64x576.Idx → Elt F .f32) transposes_S64x576_S576x64_1_0)
          (sitofp .f32 (constantI S_ 32 0#32) : S_.Idx → Elt F .f32) pads_S576x64_S640x64_0640_000 h_S_ := by
  obtain ⟨W, hW⟩ := V0_cut m c
  have e67 : V m c main_v67 = W (Proc.devRef .tc main_v67) := by
    show V0 m c (Proc.devRef .tc main_v67) = _
    rw [hW]; exact tailOps_keeps W main_v67 (by decide)
  rw [e67]
  show V0 m c (Proc.devRef .tc main_v69) = _
  rw [hW]
  after_results
  rfl

/-- The padded columns are the pad of the column matrix by the converted integer zero. -/
theorem V70_eq (c : Dev nD) :
    (V m c main_v70 : S640x3328.Idx → Elt F .f32)
      = pad S640x3328 ![0, 0] ![64, 192] ![0, 0] (V m c main_v66 : S576x3136.Idx → Elt F .f32)
          (sitofp .f32 (constantI S_ 32 0#32) : S_.Idx → Elt F .f32) pads_S576x3136_S640x3328_0640_01920 h_S_ := by
  obtain ⟨W, hW⟩ := V0_cut m c
  have e66 : V m c main_v66 = W (Proc.devRef .tc main_v66) := by
    show V0 m c (Proc.devRef .tc main_v66) = _
    rw [hW]; exact tailOps_keeps W main_v66 (by decide)
  rw [e66]
  show V0 m c (Proc.devRef .tc main_v70) = _
  rw [hW]
  after_results
  rfl

end Any

/-! ## Before the region, at the ideal instance -/

section Ideal

variable (m : (ℓ : Loc nD τ sig) → Buf (Elt Ideal) ℓ)

/-- The padded weights' rows 576 … 639 are zero. -/
theorem V69_pad (c : Dev nD) (k : Fin 640) (f : Fin 64) (h : 576 ≤ k.val) :
    (V m c main_v69 : S640x64.Idx → EReal) (ix2 k f) = (0 : EReal) := by
  refine (congrFun (V69_eq (F := Ideal) m c) (ix2 k f)).trans ?_
  refine (pad_apply_of_not_inside _ _ _ _ _ pads_S576x64_S640x64_0640_000 h_S_ (ix2 k f) (⟨0, by decide⟩ : Fin S576x64.rank) (fun hin => ?_)).trans ?_
  · have h3 := hin.2.2
    change (k.val - 0) / (0 + 1) < 576 at h3
    omega
  · exact sitofp_zero (φ := .f32)

/-- Above them the padded weights are the transposed weight matrix. -/
theorem V69_in (c : Dev nD) (k : Fin 576) (f : Fin 64) :
    (V m c main_v69 : S640x64.Idx → EReal) (ix2 (⟨k.val, by omega⟩ : Fin 640) f) = (V m c main_v67 : S64x576.Idx → EReal) (ix2 f k) := by
  refine (congrFun (V69_eq (F := Ideal) m c) (ix2 (⟨k.val, by omega⟩ : Fin 640) f)).trans ?_
  refine (pad_apply_of_inside _ _ _ _ _ pads_S576x64_S640x64_0640_000 h_S_ _ (ix2 k f) (fun a => ?_)).trans ?_
  · fin_cases a
    · show k.val = 0 + k.val * (0 + 1); omega
    · show f.val = 0 + f.val * (0 + 1); omega
  · refine transpose_apply _ _ _ _ _ (fun b => ?_)
    fin_cases b
    · rfl
    · rfl

/-- The padded columns' rows 576 … 639 are zero. -/
theorem V70_pad (c : Dev nD) (k : Fin 640) (l : Fin 3328) (h : 576 ≤ k.val) :
    (V m c main_v70 : S640x3328.Idx → EReal) (ix2 k l) = (0 : EReal) := by
  refine (congrFun (V70_eq (F := Ideal) m c) (ix2 k l)).trans ?_
  refine (pad_apply_of_not_inside _ _ _ _ _ pads_S576x3136_S640x3328_0640_01920 h_S_ (ix2 k l) (⟨0, by decide⟩ : Fin S576x3136.rank) (fun hin => ?_)).trans ?_
  · have h3 := hin.2.2
    change (k.val - 0) / (0 + 1) < 576 at h3
    omega
  · exact sitofp_zero (φ := .f32)

/-- Inside 576 × 3136 the padded columns are the column matrix. -/
theorem V70_in (c : Dev nD) (k : Fin 576) (l : Fin 3136) :
    (V m c main_v70 : S640x3328.Idx → EReal) (ix2 (⟨k.val, by omega⟩ : Fin 640) (⟨l.val, by omega⟩ : Fin 3328)) = (V m c main_v66 : S576x3136.Idx → EReal) (ix2 k l) := by
  refine (congrFun (V70_eq (F := Ideal) m c) (ix2 (⟨k.val, by omega⟩ : Fin 640) (⟨l.val, by omega⟩ : Fin 3328))).trans ?_
  refine pad_apply_of_inside _ _ _ _ _ pads_S576x3136_S640x3328_0640_01920 h_S_ _ (ix2 k l) (fun a => ?_)
  fin_cases a
  · show k.val = 0 + k.val * (0 + 1); omega
  · show l.val = 0 + l.val * (0 + 1); omega

end Ideal

/-! ## After the region, at any float instance -/

variable {F : FTy → Type} [FloatOps F]
variable (m : (ℓ : Loc nD τ sig) → Buf (Elt F) ℓ)

/-- Reshape 64 × 3136 to 64 × 28 × 28 × 4 and move the last axis to the front. -/
def tailK (A : S64x3136.Idx → Elt F .f32) : S4x64x28x28.Idx → Elt F .f32 :=
  transpose S4x64x28x28 [3, 0, 1, 2] (shapeCast S64x28x28x4 A shapeCasts_S64x3136_S64x28x28x4) transposes_S64x28x28x4_S4x64x28x28_3_0_1_2

/-- The program's result: the three host lines after the region applied to the region's result array. -/
theorem tail_eq (dats : (p : Fin 1) → (c : Dev nD) → Dat τ (Elt F) Unit ℕ (UR sig nD τ) ℕ (cfgs p) c) (c : Dev nD) :
    Pipeline.afterTail₀ cfgs dats 0 (V0 m) [hostOps1] c main_v74
      = tailK (extractStridedSlice S64x3136 ![0, 0] ((dats 0 c).arrAt 2 cfg0.N) slices_S64x3328_S64x3136_0_0) := by
  unfold Pipeline.afterTail₀
  show StableHlo.after hostOps1 _ (Proc.devRef .tc main_v74) = _
  after_results
  have e : Pipeline.withArrays (cfgs 0).spec c (V0 m c) (fun w => (dats 0 c).arrAt w (cfgs 0).N) (Proc.devRef .tc main_v71)
      = (dats 0 c).arrAt 2 cfg0.N := Pipeline.withArrays_arr spec0 launch0.win.arr_inj c _ _ 2
  rw [e]
  rfl

/-- The cut keeps the first 3136 columns. -/
theorem slice_cols {α : Type} (A : S64x3328.Idx → α) (f : Fin 64) (l : Fin 3136) :
    extractStridedSlice S64x3136 ![0, 0] A slices_S64x3328_S64x3136_0_0 (ix2 f l) = A (ix2 f (⟨l.val, by omega⟩ : Fin 3328)) := by
  refine extractStridedSlice_apply _ A _ _ _ (fun a => ?_)
  fin_cases a
  · show f.val = 0 + f.val; omega
  · show l.val = 0 + l.val; omega

end Cert.KernelIdeal.Adder

end
-- ==== Proof.LibHostSim.lean ====
/-
  Two straight lines of host operations over two different buffer signatures, compared operation by operation.

  When two programs state the same StableHLO text, their host operations write, one after the other, the HBM
  buffers of consecutive indices, each from buffers written before it, through the same pure function. If the two
  launch memories agree on the buffers below an index `n` (the arguments), then after the two lines they agree on
  every buffer the lines wrote: by induction over the lines, one operation at a time (`Step`), with no operation's
  function ever opened. The buffers' content types live over two signatures, so agreement is heterogeneous
  equality; at literal references both types compute to the same type and it is equality.
-/
import Idealize.ShloMosaic.Lib.StableHlo.Run

namespace HostSim

open Idealize.ShloMosaic Idealize.ShloMosaic.StableHlo Idealize.ShloMosaic.TcCoe

variable {τ₁ τ₂ : Topo} {sig₁ sig₂ : RefSig} {Val : EltTy → Type}

/-- A function applied to an argument, across equal types. -/
theorem heq_app {α α' β β' : Type} (hα : α = α') (hβ : β = β') {f : α → β} {f' : α' → β'} (hf : HEq f f')
    {a : α} {a' : α'} (ha : HEq a a') : HEq (f a) (f' a') := by
  subst hα; subst hβ; cases hf; cases ha; rfl

/-- An HBM reference is its index. -/
theorem ref_ext {sig : RefSig} {a b : Ref sig .tc} (ha : a.space = .hbm) (hb : b.space = .hbm)
    (h : a.idx.val = b.idx.val) : a = b := by
  obtain ⟨sa, ia, na⟩ := a
  obtain ⟨sb, ib, nb⟩ := b
  dsimp only at ha hb h
  subst ha; subst hb
  have : ia = ib := Fin.ext h
  subst this
  rfl

/-- The two valuations hold the same contents in the HBM buffers of equal index below `n`. -/
def Agree (n : ℕ) (V₁ : Valuation τ₁ sig₁ Val) (V₂ : Valuation τ₂ sig₂ Val) : Prop :=
  ∀ (a : Ref sig₁ .tc) (b : Ref sig₂ .tc), a.space = .hbm → b.space = .hbm → a.idx.val = b.idx.val → a.idx.val < n →
    HEq (V₁ (Proc.devRef .tc a)) (V₂ (Proc.devRef .tc b))

/-- One operation of each line, run side by side, extends the agreement by the buffer of index `n`. -/
def Step (n : ℕ) (op₁ : HloOp τ₁ sig₁ Val) (op₂ : HloOp τ₂ sig₂ Val) : Prop :=
  ∀ V₁ V₂, Agree n V₁ V₂ → Agree (n + 1) (op₁.result V₁) (op₂.result V₂)

/-- A step from its parts: each operation writes only its result buffer, the two result buffers are the HBM
    buffers of index `n`, and the results agree whenever the valuations agree below `n`. -/
theorem step_of (n : ℕ) (op₁ : HloOp τ₁ sig₁ Val) (op₂ : HloOp τ₂ sig₂ Val) (y₁ : Ref sig₁ .tc) (y₂ : Ref sig₂ .tc)
    (hy₁ : y₁.space = .hbm ∧ y₁.idx.val = n) (hy₂ : y₂.space = .hbm ∧ y₂.idx.val = n)
    (hne₁ : ∀ (V : Valuation τ₁ sig₁ Val) (r : Ref sig₁ .tc), r ≠ y₁ → op₁.result V (Proc.devRef .tc r) = V (Proc.devRef .tc r))
    (hne₂ : ∀ (V : Valuation τ₂ sig₂ Val) (r : Ref sig₂ .tc), r ≠ y₂ → op₂.result V (Proc.devRef .tc r) = V (Proc.devRef .tc r))
    (hval : ∀ V₁ V₂, Agree n V₁ V₂ → HEq (op₁.result V₁ (Proc.devRef .tc y₁)) (op₂.result V₂ (Proc.devRef .tc y₂))) :
    Step n op₁ op₂ := by
  intro V₁ V₂ h a b ha hb hab hlt
  by_cases hn : a.idx.val = n
  · have ea : a = y₁ := ref_ext ha hy₁.1 (hn.trans hy₁.2.symm)
    have eb : b = y₂ := ref_ext hb hy₂.1 ((hab.symm.trans hn).trans hy₂.2.symm)
    subst ea; subst eb
    exact hval V₁ V₂ h
  · have na : a ≠ y₁ := fun e => hn (e ▸ hy₁.2)
    have nb : b ≠ y₂ := fun e => hn (hab.trans (e ▸ hy₂.2))
    rw [hne₁ V₁ a na, hne₂ V₂ b nb]
    exact h a b ha hb hab (by omega)

/-- Two operand buffers that correspond: HBM buffers of one index below `n`, of one type. -/
structure Opnd (n : ℕ) (x₁ : Ref sig₁ .tc) (x₂ : Ref sig₂ .tc) : Prop where
  hbm₁ : x₁.space = .hbm
  hbm₂ : x₂.space = .hbm
  idx : x₁.idx.val = x₂.idx.val
  lt : x₁.idx.val < n
  ty : x₁.ty = x₂.ty

/-- Two result buffers that correspond: the HBM buffers of index `n`, of one type. -/
structure Res (n : ℕ) (y₁ : Ref sig₁ .tc) (y₂ : Ref sig₂ .tc) : Prop where
  hbm₁ : y₁.space = .hbm
  idx₁ : y₁.idx.val = n
  hbm₂ : y₂.space = .hbm
  idx₂ : y₂.idx.val = n
  ty : y₁.ty = y₂.ty

theorem Opnd.heq {n : ℕ} {x₁ : Ref sig₁ .tc} {x₂ : Ref sig₂ .tc} (o : Opnd n x₁ x₂) {V₁ : Valuation τ₁ sig₁ Val}
    {V₂ : Valuation τ₂ sig₂ Val} (h : Agree n V₁ V₂) : HEq (V₁ (Proc.devRef .tc x₁)) (V₂ (Proc.devRef .tc x₂)) :=
  h x₁ x₂ o.hbm₁ o.hbm₂ o.idx o.lt

theorem Opnd.cty {n : ℕ} {x₁ : Ref sig₁ .tc} {x₂ : Ref sig₂ .tc} (o : Opnd n x₁ x₂) :
    x₁.ty.Contents Val = x₂.ty.Contents Val := congrArg (fun T : BufTy => T.Contents Val) o.ty

theorem Res.cty {n : ℕ} {y₁ : Ref sig₁ .tc} {y₂ : Ref sig₂ .tc} (o : Res n y₁ y₂) :
    y₁.ty.Contents Val = y₂.ty.Contents Val := congrArg (fun T : BufTy => T.Contents Val) o.ty

/-- `%y = ‹constant›` on both sides. -/
theorem nullary_step {n : ℕ} {y₁ : Ref sig₁ .tc} {y₂ : Ref sig₂ .tc} {v₁ : y₁.ty.Contents Val} {v₂ : y₂.ty.Contents Val}
    {hy₁ hy₂} (ry : Res n y₁ y₂) (hv : HEq v₁ v₂) :
    Step n (nullary (τ := τ₁) y₁ v₁ hy₁) (nullary (τ := τ₂) y₂ v₂ hy₂) :=
  step_of n _ _ y₁ y₂ ⟨ry.hbm₁, ry.idx₁⟩ ⟨ry.hbm₂, ry.idx₂⟩
    (fun V _ h => nullary_result_ne _ v₁ hy₁ V h) (fun V _ h => nullary_result_ne _ v₂ hy₂ V h)
    (fun V₁ V₂ _ => by rw [nullary_result, nullary_result]; exact hv)

/-- `%y = ‹op› %x` on both sides. -/
theorem unary_step {n : ℕ} {x₁ y₁ : Ref sig₁ .tc} {x₂ y₂ : Ref sig₂ .tc}
    {f₁ : x₁.ty.Contents Val → y₁.ty.Contents Val} {f₂ : x₂.ty.Contents Val → y₂.ty.Contents Val} {hx₁ hy₁ hx₂ hy₂}
    (ox : Opnd n x₁ x₂) (ry : Res n y₁ y₂) (hf : HEq f₁ f₂) :
    Step n (unary (τ := τ₁) x₁ y₁ f₁ hx₁ hy₁) (unary (τ := τ₂) x₂ y₂ f₂ hx₂ hy₂) :=
  step_of n _ _ y₁ y₂ ⟨ry.hbm₁, ry.idx₁⟩ ⟨ry.hbm₂, ry.idx₂⟩
    (fun V _ h => unary_result_ne _ _ f₁ hx₁ hy₁ V h) (fun V _ h => unary_result_ne _ _ f₂ hx₂ hy₂ V h)
    (fun V₁ V₂ h => by rw [unary_result, unary_result]; exact heq_app ox.cty ry.cty hf (ox.heq h))

/-- `%y = ‹op› %a, %b` on both sides. -/
theorem binary_step {n : ℕ} {a₁ b₁ y₁ : Ref sig₁ .tc} {a₂ b₂ y₂ : Ref sig₂ .tc}
    {f₁ : a₁.ty.Contents Val → b₁.ty.Contents Val → y₁.ty.Contents Val}
    {f₂ : a₂.ty.Contents Val → b₂.ty.Contents Val → y₂.ty.Contents Val} {ha₁ hb₁ hy₁ ha₂ hb₂ hy₂}
    (oa : Opnd n a₁ a₂) (ob : Opnd n b₁ b₂) (ry : Res n y₁ y₂) (hf : HEq f₁ f₂) :
    Step n (binary (τ := τ₁) a₁ b₁ y₁ f₁ ha₁ hb₁ hy₁) (binary (τ := τ₂) a₂ b₂ y₂ f₂ ha₂ hb₂ hy₂) :=
  step_of n _ _ y₁ y₂ ⟨ry.hbm₁, ry.idx₁⟩ ⟨ry.hbm₂, ry.idx₂⟩
    (fun V _ h => binary_result_ne _ _ _ f₁ ha₁ hb₁ hy₁ V h) (fun V _ h => binary_result_ne _ _ _ f₂ ha₂ hb₂ hy₂ V h)
    (fun V₁ V₂ h => by
      rw [binary_result, binary_result]
      exact heq_app ob.cty ry.cty (heq_app oa.cty (by rw [ob.cty, ry.cty]) hf (oa.heq h)) (ob.heq h))

/-- `%y = ‹op› %c, %a, %b` on both sides. -/
theorem ternary_step {n : ℕ} {c₁ a₁ b₁ y₁ : Ref sig₁ .tc} {c₂ a₂ b₂ y₂ : Ref sig₂ .tc}
    {f₁ : c₁.ty.Contents Val → a₁.ty.Contents Val → b₁.ty.Contents Val → y₁.ty.Contents Val}
    {f₂ : c₂.ty.Contents Val → a₂.ty.Contents Val → b₂.ty.Contents Val → y₂.ty.Contents Val}
    {hc₁ ha₁ hb₁ hy₁ hc₂ ha₂ hb₂ hy₂}
    (oc : Opnd n c₁ c₂) (oa : Opnd n a₁ a₂) (ob : Opnd n b₁ b₂) (ry : Res n y₁ y₂) (hf : HEq f₁ f₂) :
    Step n (ternary (τ := τ₁) c₁ a₁ b₁ y₁ f₁ hc₁ ha₁ hb₁ hy₁) (ternary (τ := τ₂) c₂ a₂ b₂ y₂ f₂ hc₂ ha₂ hb₂ hy₂) :=
  step_of n _ _ y₁ y₂ ⟨ry.hbm₁, ry.idx₁⟩ ⟨ry.hbm₂, ry.idx₂⟩
    (fun V _ h => ternary_result_ne _ _ _ _ f₁ hc₁ ha₁ hb₁ hy₁ V h) (fun V _ h => ternary_result_ne _ _ _ _ f₂ hc₂ ha₂ hb₂ hy₂ V h)
    (fun V₁ V₂ h => by
      rw [ternary_result, ternary_result]
      exact heq_app ob.cty ry.cty
        (heq_app oa.cty (by rw [ob.cty, ry.cty]) (heq_app oc.cty (by rw [oa.cty, ob.cty, ry.cty]) hf (oc.heq h)) (oa.heq h))
        (ob.heq h))

/-- The row-major re-indexing of equal contents between equal types. -/
theorem reshape_heq {T₁ T₂ U₁ U₂ : BufTy} (tx : T₁ = T₂) (ty : U₁ = U₂)
    (he₁ : T₁.elt = U₁.elt) (hn₁ : T₁.shape.ShapeCasts U₁.shape) (he₂ : T₂.elt = U₂.elt) (hn₂ : T₂.shape.ShapeCasts U₂.shape)
    (u₁ : T₁.Contents Val) (u₂ : T₂.Contents Val) (hu : HEq u₁ u₂) :
    HEq (fun i => he₁ ▸ shapeCast U₁.shape u₁ hn₁ i : U₁.Contents Val) (fun i => he₂ ▸ shapeCast U₂.shape u₂ hn₂ i : U₂.Contents Val) := by
  subst tx; subst ty; cases hu; rfl

/-- `%y = reshape %x` on both sides: the row-major re-indexing is one function of the two shapes. -/
theorem reshape_step {n : ℕ} {x₁ y₁ : Ref sig₁ .tc} {x₂ y₂ : Ref sig₂ .tc} {he₁ hn₁ hx₁ hy₁ he₂ hn₂ hx₂ hy₂}
    (ox : Opnd n x₁ x₂) (ry : Res n y₁ y₂) :
    Step n (reshape (τ := τ₁) (Val := Val) x₁ y₁ he₁ hn₁ hx₁ hy₁) (reshape (τ := τ₂) (Val := Val) x₂ y₂ he₂ hn₂ hx₂ hy₂) :=
  step_of n _ _ y₁ y₂ ⟨ry.hbm₁, ry.idx₁⟩ ⟨ry.hbm₂, ry.idx₂⟩
    (fun V _ h => reshape_result_ne _ _ he₁ hn₁ hx₁ hy₁ V h) (fun V _ h => reshape_result_ne _ _ he₂ hn₂ hx₂ hy₂ V h)
    (fun V₁ V₂ h => by
      rw [reshape_result, reshape_result]
      exact reshape_heq ox.ty ry.ty he₁ hn₁ he₂ hn₂ _ _ (ox.heq h))

/-! ## Lines -/

/-- Two lines of equal length whose operations step side by side from index `n` to index `k`. -/
inductive Sim : ℕ → List (HloOp τ₁ sig₁ Val) → List (HloOp τ₂ sig₂ Val) → ℕ → Prop
  | nil (n : ℕ) : Sim n [] [] n
  | cons {n k : ℕ} {o₁ : HloOp τ₁ sig₁ Val} {o₂ : HloOp τ₂ sig₂ Val} {l₁ l₂} :
      Step n o₁ o₂ → Sim (n + 1) l₁ l₂ k → Sim n (o₁ :: l₁) (o₂ :: l₂) k

theorem Sim.after {n k : ℕ} {l₁ : List (HloOp τ₁ sig₁ Val)} {l₂ : List (HloOp τ₂ sig₂ Val)} (s : Sim n l₁ l₂ k) :
    ∀ {V₁ V₂}, Agree n V₁ V₂ → Agree k (StableHlo.after l₁ V₁) (StableHlo.after l₂ V₂) := by
  induction s with
  | nil n => intro V₁ V₂ h; exact h
  | cons hs _ ih => intro V₁ V₂ h; exact ih (hs V₁ V₂ h)

theorem Sim.append {n k k' : ℕ} {l₁ l₁' : List (HloOp τ₁ sig₁ Val)} {l₂ l₂' : List (HloOp τ₂ sig₂ Val)}
    (s : Sim n l₁ l₂ k) (s' : Sim k l₁' l₂' k') : Sim n (l₁ ++ l₁') (l₂ ++ l₂') k' := by
  induction s with
  | nil n => exact s'
  | cons hs _ ih => exact Sim.cons hs (ih s')

end HostSim
-- ==== Proof.HostAgree.lean ====
import proofs.«150966_j71545565217400_1_alg».proof.Proof.IdealEntry
import proofs.«150966_j71545565217400_1_alg».proof.Proof.RefRunP
import proofs.«150966_j71545565217400_1_alg».proof.Proof.LibHostSim

/-!
# The two programs' shared host lines leave the same matrices

The kernel's @main and the reference state the same first lines: both quantize the activations and the weights, pad
and unfold the activations into the 576 × 3136 column matrix, and reshape the weights to the 64 × 576 weight matrix,
writing the HBM buffers 2 … 93 in the same order through the same pure functions. From launch memories that agree on the
two arguments, the two folds therefore agree on those two matrices: operation by operation, no function opened.
-/

set_option maxRecDepth 16384

noncomputable section

namespace Cert.HostAgree

open Idealize.ShloMosaic Idealize.ShloMosaic.TcCoe Idealize.SL.Sem Idealize.ShloMosaic.StableHlo

variable {F : FTy → Type} [FloatOps F]

local notation "KO" => HloOp Cert.KernelIdeal.τ Cert.KernelIdeal.sig (Elt F)
local notation "RO" => HloOp Cert.ReferenceIdeal.τ Cert.ReferenceIdeal.sig (Elt F)
local notation "rops" => (Cert.ReferenceIdeal.Value.ops (F := F))

open HostSim in
/-- `%y = ‹op› %x₀, …, %xₘ₋₁` on both sides: the two functions agree on families that agree operand by operand. -/
theorem nary_step {τ₁ τ₂ : Topo} {sig₁ sig₂ : RefSig} {Val : EltTy → Type} {n m : ℕ}
    {xs₁ : Fin m → Ref sig₁ .tc} {xs₂ : Fin m → Ref sig₂ .tc} {y₁ : Ref sig₁ .tc} {y₂ : Ref sig₂ .tc}
    {f₁ : ((k : Fin m) → (xs₁ k).ty.Contents Val) → y₁.ty.Contents Val}
    {f₂ : ((k : Fin m) → (xs₂ k).ty.Contents Val) → y₂.ty.Contents Val} {hx₁ hy₁ hx₂ hy₂}
    (ox : ∀ k, Opnd n (xs₁ k) (xs₂ k)) (ry : Res n y₁ y₂)
    (hf : ∀ u₁ u₂, (∀ k, HEq (u₁ k) (u₂ k)) → HEq (f₁ u₁) (f₂ u₂)) :
    Step n (nary (τ := τ₁) xs₁ y₁ f₁ hx₁ hy₁) (nary (τ := τ₂) xs₂ y₂ f₂ hx₂ hy₂) :=
  step_of n _ _ y₁ y₂ ⟨ry.hbm₁, ry.idx₁⟩ ⟨ry.hbm₂, ry.idx₂⟩
    (fun V _ h => nary_result_ne _ _ f₁ hx₁ hy₁ V h) (fun V _ h => nary_result_ne _ _ f₂ hx₂ hy₂ V h)
    (fun V₁ V₂ h => by
      rw [nary_result, nary_result]
      exact hf _ _ (fun k => (ox k).heq h))

/-- Two operand buffers that correspond: HBM, of one index below the current one, of one type. -/
local macro "𝕠" : term => `(⟨rfl, rfl, rfl, by decide, rfl⟩)
/-- Two result buffers that correspond: HBM, at the current index, of one type. -/
local macro "𝕣" : term => `(⟨rfl, rfl, rfl, rfl, rfl⟩)

open Cert.KernelIdeal.Gen in
/-- The kernel's shared lines, in its own grouping. -/
abbrev shared₁ : List KO := hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (List.take 23 hostOps0_14))))))))))))))
open Cert.KernelIdeal.Gen in
/-- The kernel's own lines between the shared ones and the region. -/
abbrev own₁ : List KO := List.drop 23 hostOps0_14 ++ (hostOps0_15 ++ (hostOps0_16 ++ hostOps0_17))
/-- The reference's shared lines, cut where the kernel's grouping cuts. -/
abbrev shared₂ : List RO :=
  List.take 11 rops ++ (List.take 1 (List.drop 11 rops) ++ (List.take 2 (List.drop 12 rops) ++ (List.take 1 (List.drop 14 rops) ++ (List.take 4 (List.drop 15 rops) ++ (List.take 6 (List.drop 19 rops) ++ (List.take 21 (List.drop 25 rops) ++ (List.take 1 (List.drop 46 rops) ++ (List.take 2 (List.drop 47 rops) ++ (List.take 1 (List.drop 49 rops) ++ (List.take 4 (List.drop 50 rops) ++ (List.take 6 (List.drop 54 rops) ++ (List.take 7 (List.drop 60 rops) ++ (List.take 2 (List.drop 67 rops) ++ (List.take 23 (List.drop 69 rops)))))))))))))))

section Lines

open HostSim Cert.KernelIdeal.Gen

/-- Buffers 2 … 12: the activations' range, scale and zero point before rounding. -/
theorem sim0 : Sim 2 (hostOps0 : List KO) (List.take 11 rops) 13 :=
  .cons (nullary_step 𝕣 HEq.rfl) <|
  .cons (binary_step 𝕠 𝕠 𝕣 HEq.rfl) <|
  .cons (nullary_step 𝕣 HEq.rfl) <|
  .cons (binary_step 𝕠 𝕠 𝕣 HEq.rfl) <|
  .cons (binary_step 𝕠 𝕠 𝕣 HEq.rfl) <|
  .cons (nullary_step 𝕣 HEq.rfl) <|
  .cons (binary_step 𝕠 𝕠 𝕣 HEq.rfl) <|
  .cons (nullary_step 𝕣 HEq.rfl) <|
  .cons (binary_step 𝕠 𝕠 𝕣 HEq.rfl) <|
  .cons (unary_step 𝕠 𝕣 HEq.rfl) <|
  .cons (binary_step 𝕠 𝕠 𝕣 HEq.rfl) <|
  .nil 13

/-- Buffers 13 … 13: the zero point rounded. -/
theorem sim1 : Sim 13 (hostOps0_1 : List KO) (List.take 1 (List.drop 11 rops)) 14 :=
  .cons (unary_step 𝕠 𝕣 HEq.rfl) <|
  .nil 14

/-- Buffers 14 … 15: the activations over the scale. -/
theorem sim2 : Sim 14 (hostOps0_2 : List KO) (List.take 2 (List.drop 12 rops)) 16 :=
  .cons (unary_step 𝕠 𝕣 HEq.rfl) <|
  .cons (binary_step 𝕠 𝕠 𝕣 HEq.rfl) <|
  .nil 16

/-- Buffers 16 … 16: rounded. -/
theorem sim3 : Sim 16 (hostOps0_3 : List KO) (List.take 1 (List.drop 14 rops)) 17 :=
  .cons (unary_step 𝕠 𝕣 HEq.rfl) <|
  .nil 17

/-- Buffers 17 … 20: shifted by the zero point; the clip bounds. -/
theorem sim4 : Sim 17 (hostOps0_4 : List KO) (List.take 4 (List.drop 15 rops)) 21 :=
  .cons (unary_step 𝕠 𝕣 HEq.rfl) <|
  .cons (binary_step 𝕠 𝕠 𝕣 HEq.rfl) <|
  .cons (nullary_step 𝕣 HEq.rfl) <|
  .cons (nullary_step 𝕣 HEq.rfl) <|
  .nil 21

/-- Buffers 21 … 26: clipped to the bounds. -/
theorem sim5 : Sim 21 (hostOps0_5 : List KO) (List.take 6 (List.drop 19 rops)) 27 :=
  .cons (unary_step 𝕠 𝕣 HEq.rfl) <|
  .cons (unary_step 𝕠 𝕣 HEq.rfl) <|
  .cons (binary_step 𝕠 𝕠 𝕣 HEq.rfl) <|
  .cons (unary_step 𝕠 𝕣 HEq.rfl) <|
  .cons (unary_step 𝕠 𝕣 HEq.rfl) <|
  .cons (binary_step 𝕠 𝕠 𝕣 HEq.rfl) <|
  .nil 27

/-- Buffers 27 … 47: the activations dequantized; the weights' per-channel range, scale and zero point before rounding. -/
theorem sim6 : Sim 27 (hostOps0_6 : List KO) (List.take 21 (List.drop 25 rops)) 48 :=
  .cons (unary_step 𝕠 𝕣 HEq.rfl) <|
  .cons (binary_step 𝕠 𝕠 𝕣 HEq.rfl) <|
  .cons (unary_step 𝕠 𝕣 HEq.rfl) <|
  .cons (binary_step 𝕠 𝕠 𝕣 HEq.rfl) <|
  .cons (binary_step 𝕠 𝕠 𝕣 HEq.rfl) <|
  .cons (binary_step 𝕠 𝕠 𝕣 HEq.rfl) <|
  .cons (nullary_step 𝕣 HEq.rfl) <|
  .cons (binary_step 𝕠 𝕠 𝕣 HEq.rfl) <|
  .cons (unary_step 𝕠 𝕣 HEq.rfl) <|
  .cons (nullary_step 𝕣 HEq.rfl) <|
  .cons (binary_step 𝕠 𝕠 𝕣 HEq.rfl) <|
  .cons (unary_step 𝕠 𝕣 HEq.rfl) <|
  .cons (binary_step 𝕠 𝕠 𝕣 HEq.rfl) <|
  .cons (nullary_step 𝕣 HEq.rfl) <|
  .cons (unary_step 𝕠 𝕣 HEq.rfl) <|
  .cons (binary_step 𝕠 𝕠 𝕣 HEq.rfl) <|
  .cons (nullary_step 𝕣 HEq.rfl) <|
  .cons (unary_step 𝕠 𝕣 HEq.rfl) <|
  .cons (binary_step 𝕠 𝕠 𝕣 HEq.rfl) <|
  .cons (unary_step 𝕠 𝕣 HEq.rfl) <|
  .cons (binary_step 𝕠 𝕠 𝕣 HEq.rfl) <|
  .nil 48

/-- Buffers 48 … 48: the zero point rounded. -/
theorem sim7 : Sim 48 (hostOps0_7 : List KO) (List.take 1 (List.drop 46 rops)) 49 :=
  .cons (unary_step 𝕠 𝕣 HEq.rfl) <|
  .nil 49

/-- Buffers 49 … 50: the weights over the scale. -/
theorem sim8 : Sim 49 (hostOps0_8 : List KO) (List.take 2 (List.drop 47 rops)) 51 :=
  .cons (unary_step 𝕠 𝕣 HEq.rfl) <|
  .cons (binary_step 𝕠 𝕠 𝕣 HEq.rfl) <|
  .nil 51

/-- Buffers 51 … 51: rounded. -/
theorem sim9 : Sim 51 (hostOps0_9 : List KO) (List.take 1 (List.drop 49 rops)) 52 :=
  .cons (unary_step 𝕠 𝕣 HEq.rfl) <|
  .nil 52

/-- Buffers 52 … 55: shifted by the zero point; the clip bounds. -/
theorem sim10 : Sim 52 (hostOps0_10 : List KO) (List.take 4 (List.drop 50 rops)) 56 :=
  .cons (unary_step 𝕠 𝕣 HEq.rfl) <|
  .cons (binary_step 𝕠 𝕠 𝕣 HEq.rfl) <|
  .cons (nullary_step 𝕣 HEq.rfl) <|
  .cons (nullary_step 𝕣 HEq.rfl) <|
  .nil 56

/-- Buffers 56 … 61: clipped to the bounds. -/
theorem sim11 : Sim 56 (hostOps0_11 : List KO) (List.take 6 (List.drop 54 rops)) 62 :=
  .cons (unary_step 𝕠 𝕣 HEq.rfl) <|
  .cons (unary_step 𝕠 𝕣 HEq.rfl) <|
  .cons (binary_step 𝕠 𝕠 𝕣 HEq.rfl) <|
  .cons (unary_step 𝕠 𝕣 HEq.rfl) <|
  .cons (unary_step 𝕠 𝕣 HEq.rfl) <|
  .cons (binary_step 𝕠 𝕠 𝕣 HEq.rfl) <|
  .nil 62

/-- Buffers 62 … 68: the weights dequantized; the pad value as an integer. -/
theorem sim12 : Sim 62 (hostOps0_12 : List KO) (List.take 7 (List.drop 60 rops)) 69 :=
  .cons (unary_step 𝕠 𝕣 HEq.rfl) <|
  .cons (binary_step 𝕠 𝕠 𝕣 HEq.rfl) <|
  .cons (unary_step 𝕠 𝕣 HEq.rfl) <|
  .cons (binary_step 𝕠 𝕠 𝕣 HEq.rfl) <|
  .cons (binary_step 𝕠 𝕠 𝕣 HEq.rfl) <|
  .cons (binary_step 𝕠 𝕠 𝕣 HEq.rfl) <|
  .cons (nullary_step 𝕣 HEq.rfl) <|
  .nil 69

/-- Buffers 69 … 70: the activations padded by one on each side of the two image axes. -/
theorem sim13 : Sim 69 (hostOps0_13 : List KO) (List.take 2 (List.drop 67 rops)) 71 :=
  .cons (unary_step 𝕠 𝕣 HEq.rfl) <|
  .cons (binary_step 𝕠 𝕠 𝕣 HEq.rfl) <|
  .nil 71

/-- Buffers 71 … 93: the nine shifted windows, each given a unit axis, concatenated along it, then reshaped and transposed to the column matrix; the weights reshaped to the weight matrix. -/
theorem sim14 : Sim 71 (List.take 23 (hostOps0_14 : List KO)) (List.take 23 (List.drop 69 rops)) 94 :=
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (unary_step 𝕠 𝕣 HEq.rfl) <|
  .cons (nary_step (fun k => by fin_cases k <;> exact 𝕠) 𝕣 (fun u₁ u₂ hu => by
    have e0 : u₁ 0 = u₂ 0 := eq_of_heq (hu 0)
    have e1 : u₁ 1 = u₂ 1 := eq_of_heq (hu 1)
    have e2 : u₁ 2 = u₂ 2 := eq_of_heq (hu 2)
    have e3 : u₁ 3 = u₂ 3 := eq_of_heq (hu 3)
    have e4 : u₁ 4 = u₂ 4 := eq_of_heq (hu 4)
    have e5 : u₁ 5 = u₂ 5 := eq_of_heq (hu 5)
    have e6 : u₁ 6 = u₂ 6 := eq_of_heq (hu 6)
    have e7 : u₁ 7 = u₂ 7 := eq_of_heq (hu 7)
    have e8 : u₁ 8 = u₂ 8 := eq_of_heq (hu 8)
    rw [e0, e1, e2, e3, e4, e5, e6, e7, e8])) <|
  .cons (reshape_step 𝕠 𝕣) <|
  .cons (unary_step 𝕠 𝕣 HEq.rfl) <|
  .cons (reshape_step 𝕠 𝕣) <|
  .cons (reshape_step 𝕠 𝕣) <|
  .nil 94

/-- The shared lines, whole: buffers 2 … 93. -/
theorem simAll : Sim 2 (shared₁ (F := F)) shared₂ 94 :=
  sim0.append (sim1.append (sim2.append (sim3.append (sim4.append (sim5.append (sim6.append (sim7.append (sim8.append (sim9.append (sim10.append (sim11.append (sim12.append (sim13.append (sim14))))))))))))))

end Lines

/-- An operation that writes one buffer writes no other. -/
theorem not_writes {τ : Topo} {sig : RefSig} {Val : EltTy → Type} {op : HloOp τ sig Val} {b y : Ref sig .tc}
    (hw : op.writes = {Proc.devRef .tc y}) (h : b ≠ y) : Proc.devRef .tc b ∉ op.writes := by
  rw [hw, Finset.mem_singleton]; exact devRef_ne_of_ne h

/-- An operation's one result buffer is another buffer than the given one. -/
local macro "𝕨" : term => `(not_writes rfl (by decide))

open Cert.KernelIdeal.Gen in
/-- The kernel's lines before the region: the shared lines, then seven lines of its own. -/
theorem kernel_split : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]
    = shared₁ (F := F) ++ own₁ := rfl

/-- The reference's lines: the shared lines, then eleven lines of its own. -/
theorem ref_split : rops = shared₂ ++ List.drop 92 rops := rfl

open Cert.KernelIdeal.Gen in
/-- The kernel's own seven lines write buffers 94 … 100: neither matrix. -/
theorem kernel_tail (V : Valuation Cert.KernelIdeal.τ Cert.KernelIdeal.sig (Elt F)) :
    after own₁ V (Proc.devRef .tc Cert.KernelIdeal.main_v66)
        = V (Proc.devRef .tc Cert.KernelIdeal.main_v66)
    ∧ after own₁ V (Proc.devRef .tc Cert.KernelIdeal.main_v67)
        = V (Proc.devRef .tc Cert.KernelIdeal.main_v67) :=
  ⟨after_of_forall_not_mem _ _ (List.forall_iff_forall_mem.mp ⟨𝕨, 𝕨, 𝕨, 𝕨, 𝕨, 𝕨, 𝕨⟩),
   after_of_forall_not_mem _ _ (List.forall_iff_forall_mem.mp ⟨𝕨, 𝕨, 𝕨, 𝕨, 𝕨, 𝕨, 𝕨⟩)⟩

/-- The reference's own eleven lines write buffers 94 … 104: neither matrix. -/
theorem ref_tail (V : Valuation Cert.ReferenceIdeal.τ Cert.ReferenceIdeal.sig (Elt F)) :
    after (List.drop 92 rops) V (Proc.devRef .tc Cert.ReferenceIdeal.main_v66) = V (Proc.devRef .tc Cert.ReferenceIdeal.main_v66)
    ∧ after (List.drop 92 rops) V (Proc.devRef .tc Cert.ReferenceIdeal.main_v67) = V (Proc.devRef .tc Cert.ReferenceIdeal.main_v67) :=
  ⟨after_of_forall_not_mem _ _ (List.forall_iff_forall_mem.mp ⟨𝕨, 𝕨, 𝕨, 𝕨, 𝕨, 𝕨, 𝕨, 𝕨, 𝕨, 𝕨, 𝕨⟩),
   after_of_forall_not_mem _ _ (List.forall_iff_forall_mem.mp ⟨𝕨, 𝕨, 𝕨, 𝕨, 𝕨, 𝕨, 𝕨, 𝕨, 𝕨, 𝕨, 𝕨⟩)⟩

/-- Launch memories that agree on the two arguments agree on every HBM buffer of index below 2. -/
theorem launch_agree
    (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ)
    (c : Dev 1)
    (h0 : mR ((c.tc : Thread Cert.ReferenceIdeal.nD Cert.ReferenceIdeal.τ).loc Cert.ReferenceIdeal.main_arg0)
        = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1)
        = mK ((c.tc : Thread Cert.KernelIdeal.nD Cert.KernelIdeal.τ).loc Cert.KernelIdeal.main_arg1)) :
    HostSim.Agree 2 (launchContents mK c) (launchContents mR c) := by
  intro a b ha hb hab hlt
  have hcases : a.idx.val = 0 ∨ a.idx.val = 1 := by omega
  rcases hcases with h | h
  · have ea : a = Cert.KernelIdeal.main_arg0 := HostSim.ref_ext ha rfl h
    have eb : b = Cert.ReferenceIdeal.main_arg0 := HostSim.ref_ext hb rfl (hab.symm.trans h)
    subst ea; subst eb
    exact heq_of_eq h0.symm
  · have ea : a = Cert.KernelIdeal.main_arg1 := HostSim.ref_ext ha rfl h
    have eb : b = Cert.ReferenceIdeal.main_arg1 := HostSim.ref_ext hb rfl (hab.symm.trans h)
    subst ea; subst eb
    exact heq_of_eq h1.symm

/-- From launch memories agreeing on the activations and the weights, the reference's fold and the kernel's region-entry
    contents hold the same column matrix and the same weight matrix. -/
theorem prefix_agree
    (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ)
    (c : Dev 1)
    (h0 : mR ((c.tc : Thread Cert.ReferenceIdeal.nD Cert.ReferenceIdeal.τ).loc Cert.ReferenceIdeal.main_arg0)
        = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1)
        = mK ((c.tc : Thread Cert.KernelIdeal.nD Cert.KernelIdeal.τ).loc Cert.KernelIdeal.main_arg1)) :
    after Cert.ReferenceIdeal.Value.ops (launchContents mR c) (Proc.devRef .tc Cert.ReferenceIdeal.main_v66)
        = Cert.KernelIdeal.Adder.V mK c Cert.KernelIdeal.main_v66
    ∧ after Cert.ReferenceIdeal.Value.ops (launchContents mR c) (Proc.devRef .tc Cert.ReferenceIdeal.main_v67)
        = Cert.KernelIdeal.Adder.V mK c Cert.KernelIdeal.main_v67 := by
  have hS := simAll.after (launch_agree mK mR c h0 h1)
  have e66 := eq_of_heq (hS Cert.KernelIdeal.main_v66 Cert.ReferenceIdeal.main_v66 rfl rfl rfl (by decide))
  have e67 := eq_of_heq (hS Cert.KernelIdeal.main_v67 Cert.ReferenceIdeal.main_v67 rfl rfl rfl (by decide))
  have hK : ∀ b, Cert.KernelIdeal.Adder.V mK c b = after own₁ (after shared₁ (launchContents mK c)) (Proc.devRef .tc b) := fun b => by
    show after (List.flatten _) _ _ = _
    rw [kernel_split, after_append]
  rw [hK, hK, (kernel_tail _).1, (kernel_tail _).2, ref_split, after_append, (ref_tail _).1, (ref_tail _).2]
  exact ⟨e66.symm, e67.symm⟩

end Cert.HostAgree

end
-- ==== Proof.AdderResult.lean ====
import proofs.«150966_j71545565217400_1_alg».proof.Proof.AdderSpec

/-!
# The operator's result

out[f, l] = −(0 + Σ_k |W[f, k] − X[k, l]|): the reference reduces with initial value 0 and negates.
-/

noncomputable section

namespace L1Spec

open Idealize.ShloMosaic Idealize.ShloMosaic.ValueIdx

/-- The L1-distance product of a 64 × 576 weight matrix and a 576 × 3136 column matrix. -/
def l1 (W : (⟨2, ![64, 576]⟩ : Shape).Idx → EReal) (X : (⟨2, ![576, 3136]⟩ : Shape).Idx → EReal) :
    (⟨2, ![64, 3136]⟩ : Shape).Idx → EReal :=
  fun i => -(0 + ∑ k : Fin 576, absd (W (ix2 (i 0) k)) (X (ix2 k (i 1))))

end L1Spec

end
-- ==== Proof.RefValue.lean ====
import proofs.«150966_j71545565217400_1_alg».proof.Proof.RefRunP
import proofs.«150966_j71545565217400_1_alg».proof.Proof.AdderResult
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
# The reference's run and its result

The reference is a straight line of host operations. Every weakly fair execution terminates with each buffer at the
fold of the operations over the launch contents. Its last lines broadcast the quantized weight matrix W (64 × 576) and
the column matrix X (576 × 3136) to 64 × 576 × 3136, subtract, take absolute values, sum over the middle axis from 0,
negate, reshape to 64 × 28 × 28 × 4 and move the last axis to the front: the result is that re-laying of the
L1-distance product of W and X, whatever the earlier lines left in W and X.
-/

set_option maxRecDepth 16384

noncomputable section

namespace Cert.ReferenceIdeal.RefL1

open Cert.ReferenceIdeal Cert.ReferenceIdeal.Gen Cert.ReferenceIdeal.Value
open Idealize.ShloMosaic Idealize.ShloMosaic.TcCoe Idealize.ShloMosaic.ValueIdx Idealize.SL.Sem Idealize.ShloMosaic.StableHlo

variable {F : FTy → Type} [FloatOps F]

/-- The run: every buffer ends at the fold of the operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- No operation writes an argument. -/
theorem fold_arg0 (m : (ℓ : Loc nD τ sig) → Buf (Elt F) ℓ) (d : Dev nD) :
    after ops (launchContents m d) (Proc.devRef .tc main_arg0) = m ((d.tc : Thread nD τ).loc main_arg0) := by
  exact StableHlo.after_of_forall_not_mem (b := Proc.devRef .tc main_arg0) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem fold_arg1 (m : (ℓ : Loc nD τ sig) → Buf (Elt F) ℓ) (d : Dev nD) :
    after ops (launchContents m d) (Proc.devRef .tc main_arg1) = m ((d.tc : Thread nD τ).loc main_arg1) := by
  exact StableHlo.after_of_forall_not_mem (b := Proc.devRef .tc main_arg1) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Reshape 64 × 3136 to 64 × 28 × 28 × 4 and move the last axis to the front. -/
def tailR (A : S64x3136.Idx → Elt F .f32) : S4x64x28x28.Idx → Elt F .f32 :=
  transpose S4x64x28x28 [3, 0, 1, 2] (shapeCast S64x28x28x4 A shapeCasts_S64x3136_S64x28x28x4) transposes_S64x28x28x4_S4x64x28x28_3_0_1_2

/-- The weight matrix broadcast to 64 × 576 × 3136, read at (f, k, l), is the matrix at (f, k). -/
theorem bcastW_apply (A : S64x576.Idx → EReal) (f : Fin 64) (k : Fin 576) (l : Fin 3136) :
    broadcastInDim S64x576x3136 ![0, 1, 2] bcast_S64x576x1_S64x576x3136_0_1_2
        (broadcastInDim S64x576x1 ![0, 1] bcast_S64x576_S64x576x1_0_1 A) (ix3 f k l) = A (ix2 f k) := by
  refine (broadcastInDim_apply _ _ _ (ix3 f k l) (ix3 f k (0 : Fin 1)) fun a => ?_).trans ?_
  · match a with
    | ⟨0, _⟩ => rfl
    | ⟨1, _⟩ => rfl
    | ⟨2, _⟩ => rfl
  · refine broadcastInDim_apply _ _ _ (ix3 f k (0 : Fin 1)) (ix2 f k) fun a => ?_
    match a with
    | ⟨0, _⟩ => rfl
    | ⟨1, _⟩ => rfl

/-- The column matrix broadcast to 64 × 576 × 3136, read at (f, k, l), is the matrix at (k, l). -/
theorem bcastX_apply (B : S576x3136.Idx → EReal) (f : Fin 64) (k : Fin 576) (l : Fin 3136) :
    broadcastInDim S64x576x3136 ![0, 1, 2] bcast_S1x576x3136_S64x576x3136_0_1_2
        (broadcastInDim S1x576x3136 ![1, 2] bcast_S576x3136_S1x576x3136_1_2 B) (ix3 f k l) = B (ix2 k l) := by
  refine (broadcastInDim_apply _ _ _ (ix3 f k l) (ix3 (0 : Fin 1) k l) fun a => ?_).trans ?_
  · match a with
    | ⟨0, _⟩ => rfl
    | ⟨1, _⟩ => rfl
    | ⟨2, _⟩ => rfl
  · refine broadcastInDim_apply _ _ _ (ix3 (0 : Fin 1) k l) (ix2 k l) fun a => ?_
    match a with
    | ⟨0, _⟩ => rfl
    | ⟨1, _⟩ => rfl

theorem reduces_mid : S64x576x3136.Reduces [1] S64x3136 := by decide

/-- The index of the 64 × 576 × 3136 array over (f, l) with k inserted on the middle axis. -/
theorem lift_mid (f : Fin 64) (l : Fin 3136) (k : Fin 576) :
    reduces_mid.lift (ix2 f l) k = ix3 f k l := by
  funext c
  match c with
  | ⟨0, _⟩ => exact Fin.ext rfl
  | ⟨1, _⟩ => exact Fin.ext rfl
  | ⟨2, _⟩ => exact Fin.ext rfl

/-- One summand: |W[f, k] − X[k, l]| read through the broadcasts. -/
theorem term_eq (A : S64x576.Idx → EReal) (B : S576x3136.Idx → EReal) (f : Fin 64) (l : Fin 3136) (k : Fin 576) :
    Host.absf (F := Ideal) (φ := .f32) (subf
          (broadcastInDim S64x576x3136 ![0, 1, 2] bcast_S64x576x1_S64x576x3136_0_1_2
            (broadcastInDim S64x576x1 ![0, 1] bcast_S64x576_S64x576x1_0_1 A))
          (broadcastInDim S64x576x3136 ![0, 1, 2] bcast_S1x576x3136_S64x576x3136_0_1_2
            (broadcastInDim S1x576x3136 ![1, 2] bcast_S576x3136_S1x576x3136_1_2 B))) (reduces_mid.lift (ix2 f l) k)
      = L1Spec.absd (A (ix2 f k)) (B (ix2 k l)) := by
  rw [lift_mid]
  show max (_ - _) (-(_ - _)) = _
  rw [bcastW_apply, bcastX_apply]
  rfl

/-- The reference's last arithmetic lines are the L1-distance product. -/
theorem core_eq (A : S64x576.Idx → EReal) (B : S576x3136.Idx → EReal) :
    (Host.negf (Host.reduceAdd (F := Ideal) (φ := .f32)
        (Host.absf (subf
          (broadcastInDim S64x576x3136 ![0, 1, 2] bcast_S64x576x1_S64x576x3136_0_1_2
            (broadcastInDim S64x576x1 ![0, 1] bcast_S64x576_S64x576x1_0_1 A))
          (broadcastInDim S64x576x3136 ![0, 1, 2] bcast_S1x576x3136_S64x576x3136_0_1_2
            (broadcastInDim S1x576x3136 ![1, 2] bcast_S576x3136_S1x576x3136_1_2 B))))
        (constant S_ FTy.f32 0#32) reducesTo_S64x576x3136_S64x3136_d1 h_S_) : S64x3136.Idx → EReal)
      = L1Spec.l1 A B := by
  funext i
  obtain ⟨f, l, rfl⟩ : ∃ (f : Fin 64) (l : Fin 3136), i = ix2 f l := ⟨i 0, i 1, eq_ix2 i⟩
  show -(Host.reduceAdd (F := Ideal) (φ := .f32) _ _ reducesTo_S64x576x3136_S64x3136_d1 h_S_ (ix2 f l)) = _
  rw [hostReduceAdd_apply, Ideal.hostReduceAdd_single reducesTo_S64x576x3136_S64x3136_d1 reduces_mid, constant_apply,
    Ideal.ofBits_zero_f32]
  exact congrArg (fun t => -(0 + t)) (Finset.sum_congr rfl fun k _ => term_eq A B f l k)

/-- At the ideal instance the result is the re-laid L1-distance product of what the fold leaves in the weight matrix's
    and the column matrix's buffers. -/
theorem fold_result (m : (ℓ : Loc nD τ sig) → Buf (Elt Ideal) ℓ) (d : Dev nD) :
    after ops (launchContents m d) (Proc.devRef .tc main_v77)
      = tailR (F := Ideal) (L1Spec.l1 (after ops (launchContents m d) (Proc.devRef .tc main_v67)) (after ops (launchContents m d) (Proc.devRef .tc main_v66))) := by
  have hsplit : (ops : List (HloOp τ sig (Elt Ideal))) = ops.take 92 ++ ops.drop 92 := (List.take_append_drop 92 _).symm
  rw [hsplit, StableHlo.after_append]
  generalize after (List.take 92 (ops : List (HloOp τ sig (Elt Ideal)))) (launchContents m d) = W
  simp only [ops, List.drop_succ_cons, List.drop_zero]
  after_results
  rw [← core_eq]
  rfl

end Cert.ReferenceIdeal.RefL1

end
-- ==== Proof.Bridge.lean ====
import proofs.«150966_j71545565217400_1_alg».proof.Defs
import proofs.«150966_j71545565217400_1_alg».proof.Proof.IdealValue
import proofs.«150966_j71545565217400_1_alg».proof.Proof.IdealHostReads
import proofs.«150966_j71545565217400_1_alg».proof.Proof.HostAgree
import proofs.«150966_j71545565217400_1_alg».proof.Proof.RefValue
import proofs.«150966_j71545565217400_1_alg».proof.Proof.AdderResult

/-!
# The kernel's program and the reference compute the same array

Kernel side: the region's result array is 0 minus the five-tile accumulation over the padded matrices; the padded rows are
zero, so that is 0 − (0 + Σ_k |W[f,k] − X[k,l]|) over the 576 real rows, and within the first 3136 columns the padded
matrices are the transposed weight matrix and the column matrix; 0 − a = −a. The three host lines after the region cut the
padding columns off and re-lay the result. Reference side: the same re-laying of −(0 + Σ_k |W[f,k] − X[k,l]|). Both programs
compute W and X by the same host lines from the same arguments.
-/

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Adder
open L1Spec

/-- The two programs' re-laying of a 64 × 3136 array is one function. -/
theorem tail_same {F : FTy → Type} [FloatOps F] (A : S64x3136.Idx → Elt F .f32) :
    Cert.ReferenceIdeal.RefL1.tailR A = Cert.KernelIdeal.Adder.tailK A := rfl

variable (m : (ℓ : Loc nD τ sig) → Buf (Elt Ideal) ℓ)

/-- Cut back to 3136 columns, the region's result array is the L1-distance product of the weight matrix and the column
    matrix the host lines before the region computed. -/
theorem region_result (c : Dev nD) :
    extractStridedSlice S64x3136 ![0, 0] ((dats m 0 c).arrAt 2 cfg0.N) slices_S64x3328_S64x3136_0_0
      = l1 (V m c main_v67) (V m c main_v66) := by
  funext i
  obtain ⟨f, l, rfl⟩ : ∃ (f : Fin 64) (l : Fin 3136), i = ix2 f l := ⟨i 0, i 1, eq_ix2 i⟩
  rw [slice_cols, final m c]
  unfold G l1
  show 0 - accUpTo (Wp m c) (Xp m c) 4 _ f (⟨l.val, _⟩ : Fin 3328) = -(0 + ∑ k : Fin 576, absd (V m c main_v67 (ix2 f k)) (V m c main_v66 (ix2 k l)))
  rw [accUpTo_last (Wp m c) (Xp m c) (fun k f h => V69_pad m c k f h) (fun k l h => V70_pad m c k l h), zero_sub]
  refine congrArg (fun s => -(0 + s)) (Finset.sum_congr rfl fun k _ => ?_)
  show absd (V m c main_v69 _) (V m c main_v70 _) = _
  rw [V69_in m c k f, V70_in m c k l]

end Cert.Proof.Bridge

end
-- ==== Proof.lean ====
/-
  The certificate of the L1-distance ("adder") convolution kernel against its jnp reference.

  Both programs fake-quantize the activations and the weights, unfold the activations into a 576 × 3136 column matrix X
  and reshape the weights into a 64 × 576 matrix W, by the same host lines. The reference then forms
  −(0 + Σ_k |W[f,k] − X[k,l]|) and re-lays it as 4 × 64 × 28 × 28. The kernel's program transposes W, pads both matrices
  with zeros to whole tiles (640 rows, 3328 columns) and runs one region on the grid 13 × 5: for each of the thirteen
  column tiles an accumulator is reset at the first of five row tiles, gains each row tile's column sums of |w − x|, and
  0 minus it is written to the output block after the fifth; the program then cuts the padding columns off and re-lays
  the result the same way.

  * The three frames: the two kernel programs run to the end, fault nowhere and leave their arguments unchanged by the
    launch theorem for a region followed by host lines, over proof data that name the accumulator after every grid point
    (one text for both float instances); the reference by the run of a straight line of host operations.
  * preserves: the ideal pass rewrote nothing.
  * algebraic: over the extended reals a padded row contributes |0 − 0| = 0 and sums may be regrouped freely, so the
    five-tile accumulation is the reference's sum over k; 0 − a = −a; the padding columns are cut off; the shared host lines
    leave the same W and X in both programs (compared operation by operation, never evaluated).
-/
import proofs.«150966_j71545565217400_1_alg».proof.Defs
import proofs.«150966_j71545565217400_1_alg».proof.Proof.Gen.Kernel
import proofs.«150966_j71545565217400_1_alg».proof.Proof.Gen.KernelIdeal
import proofs.«150966_j71545565217400_1_alg».proof.Proof.Gen.ReferenceIdeal
import proofs.«150966_j71545565217400_1_alg».proof.Proof.Gen.Pre_finite_inputs
import proofs.«150966_j71545565217400_1_alg».proof.Proof.BitsFrame
import proofs.«150966_j71545565217400_1_alg».proof.Proof.IdealFrame
import proofs.«150966_j71545565217400_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Adder.frame m ρ
theorem frame_ki : Cert.frame_KernelIdeal := fun m ρ _ => Cert.KernelIdeal.Adder.frame m ρ
theorem frame_ri : Cert.frame_ReferenceIdeal := fun m ρ _ =>
  (θ_run Cert.ReferenceIdeal.defs _ _).mono
    (fun _ h c => ⟨(h c Cert.ReferenceIdeal.main_arg0).trans (Cert.ReferenceIdeal.RefL1.fold_arg0 m c),
                   (h c Cert.ReferenceIdeal.main_arg1).trans (Cert.ReferenceIdeal.RefL1.fold_arg1 m c)⟩)
    (Cert.ReferenceIdeal.RefL1.run_fold (F := Ideal) m ρ)

theorem preserves : Cert.preserves_Kernel_KernelIdeal := trivial

/-- Both programs end with the re-laid L1-distance product of the weight matrix and the column matrix that the kernel
    program's host lines computed. -/
theorem algebraic : Cert.algebraic_KernelIdeal_ReferenceIdeal := by
  intro m ρ m' ρ' _ hagree
  refine ⟨fun c => Cert.KernelIdeal.Adder.tailK (F := Ideal)
      (L1Spec.l1 (Cert.KernelIdeal.Adder.V m c Cert.KernelIdeal.main_v67) (Cert.KernelIdeal.Adder.V m c Cert.KernelIdeal.main_v66)), ?_, ?_⟩
  · refine (θ_run Cert.KernelIdeal.defs _ _).mono (fun _ h c => ⟨?_, ?_, ?_⟩) (Cert.KernelIdeal.Adder.run_main m ρ)
    · refine ((h c).2 Cert.KernelIdeal.main_v74 (Pipeline.mem_restRefs_of Cert.KernelIdeal.main_v74 (by decide) (by decide))).trans ?_
      rw [Cert.KernelIdeal.Adder.tail_eq m (Cert.KernelIdeal.Adder.dats m) c, Cert.Proof.Bridge.region_result m c]
    · exact ((h c).2 Cert.KernelIdeal.main_arg0 (Pipeline.mem_restRefs_of Cert.KernelIdeal.main_arg0 (by decide) (by decide))).trans
        (Cert.KernelIdeal.Adder.W_main_arg0 m (Cert.KernelIdeal.Adder.dats m) c)
    · exact ((h c).2 Cert.KernelIdeal.main_arg1 (Pipeline.mem_restRefs_of Cert.KernelIdeal.main_arg1 (by decide) (by decide))).trans
        (Cert.KernelIdeal.Adder.W_main_arg1 m (Cert.KernelIdeal.Adder.dats m) c)
  · refine (θ_run Cert.ReferenceIdeal.defs _ _).mono (fun _ h c => ⟨?_, ?_, ?_⟩) (Cert.ReferenceIdeal.RefL1.run_fold (F := Ideal) m' ρ')
    · obtain ⟨e66, e67⟩ := Cert.HostAgree.prefix_agree m m' c (hagree c).1 (hagree c).2
      rw [h c Cert.ReferenceIdeal.main_v77, Cert.ReferenceIdeal.RefL1.fold_result m' c, e66, e67]
      exact Cert.Proof.Bridge.tail_same _
    · exact (h c Cert.ReferenceIdeal.main_arg0).trans (Cert.ReferenceIdeal.RefL1.fold_arg0 m' c)
    · exact (h c Cert.ReferenceIdeal.main_arg1).trans (Cert.ReferenceIdeal.RefL1.fold_arg1 m' c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
